-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S64x64 : Shape := ⟨2, ![64, 64]⟩
abbrev S64x1 : Shape := ⟨2, ![64, 1]⟩
abbrev S1 : Shape := ⟨1, ![1]⟩
abbrev S1000000x64 : Shape := ⟨2, ![1000000, 64]⟩
abbrev S2x2000000 : Shape := ⟨2, ![2, 2000000]⟩
abbrev S16384 : Shape := ⟨1, ![16384]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S1000000x64 : S_.BroadcastsInDim S1000000x64 (![] : Fin 0 → Fin S1000000x64.rank)
  reducesTo_S1000000x64_S_d0_1 : S1000000x64.ReducesTo [0, 1] S_

variable [Facts]

def fn_part1 {F : FTy → Type} [FloatOps F] (main_arg4 : FVec F S1 .f32) (main_arg5 : FVec F S1000000x64 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1000000x64 .f32 := Host.absf main_arg5
  let main_cst_8 : FVec F S_ .f32 := constant S_ .f32 0x7F800000#32
  let main_v25 : FVec F S1000000x64 .f32 := broadcastInDim S1000000x64 ![] bcast_S_S1000000x64 main_cst_8
  let main_v26 : IVec S1000000x64 1 := cmpf .olt main_v24 main_v25
  let main_c_9 : IVec S_ 1 := constantI S_ 1 1#1
  let main_v27 : IVec S_ 1 := (fun x v => Host.reduce IntOp.andi x v reducesTo_S1000000x64_S_d0_1 h_S_) main_v26 main_c_9
  let main_v28 : IVec S_ 1 := andi main_v23 main_v27
  main_v28

def fn {F : FTy → Type} [FloatOps F] (main_arg0 : FVec F S100000x64 .f32) (main_arg1 : FVec F S50000x64 .f32) (main_arg2 : FVec F S64x64 .f32) (main_arg3 : FVec F S64x1 .f32) (main_arg4 : FVec F S1 .f32) (main_arg5 : FVec F S1000000x64 .f32) (main_arg6 : IVec S2x2000000 32) (main_arg7 : IVec S16384 32) (main_arg8 : IVec S16384 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_arg5 main_v13 main_v16
-- ==== Kernel.lean ====
abbrev S100000x64 : Shape := ⟨2, ![100000, 64]⟩
abbrev S50000x64 : Shape := ⟨2, ![50000, 64]⟩
abbrev S64x64 : Shape := ⟨2, ![64, 64]⟩
abbrev S64x1 : Shape := ⟨2, ![64, 1]⟩
abbrev S1 : Shape := ⟨1, ![1]⟩
abbrev S1000000x64 : Shape := ⟨2, ![1000000, 64]⟩
abbrev S2x2000000 : Shape := ⟨2, ![2, 2000000]⟩
abbrev S16384 : Shape := ⟨1, ![16384]⟩
abbrev S1x2000000 : Shape := ⟨2, ![1, 2000000]⟩
abbrev S2000000 : Shape := ⟨1, ![2000000]⟩
abbrev S1x1 : Shape := ⟨2, ![1, 1]⟩
abbrev S1000000x1 : Shape := ⟨2, ![1000000, 1]⟩
abbrev S20000x64 : Shape := ⟨2, ![20000, 64]⟩
abbrev S20000x1 : Shape := ⟨2, ![20000, 1]⟩
abbrev S1000000 : Shape := ⟨1, ![1000000]⟩
abbrev S_ : Shape := ⟨0, ![]⟩
abbrev S150000 : Shape := ⟨1, ![150000]⟩
abbrev S2000000x1 : Shape := ⟨2, ![2000000, 1]⟩
abbrev S150000x64 : Shape := ⟨2, ![150000, 64]⟩
abbrev S2000000x64 : Shape := ⟨2, ![2000000, 64]⟩
abbrev S16384x1 : Shape := ⟨2, ![16384, 1]⟩
abbrev S16384x64 : Shape := ⟨2, ![16384, 64]⟩
abbrev S4096x64 : Shape := ⟨2, ![4096, 64]⟩
abbrev S4096 : Shape := ⟨1, ![4096]⟩

abbrev nBuf : Space → Nat
  | .hbm => 137
  | .vmem => 13
  | .smem => 0
  | _ => 0

abbrev hbmTy0_0 (i : Nat) : BufTy := match i % 128 with
  | 0 => ⟨S100000x64, .f32⟩
  | 1 => ⟨S50000x64, .f32⟩
  | 2 => ⟨S64x64, .f32⟩
  | 3 => ⟨S64x1, .f32⟩
  | 4 => ⟨S1, .f32⟩
  | 5 => ⟨S1000000x64, .f32⟩
  | 6 => ⟨S2x2000000, .i32⟩
  | 7 => ⟨S16384, .i32⟩
  | 8 => ⟨S16384, .i32⟩
  | 9 => ⟨S1x2000000, .i32⟩
  | 10 => ⟨S2000000, .i32⟩
  | 11 => ⟨S1x2000000, .i32⟩
  | 12 => ⟨S2000000, .i32⟩
  | 13 => ⟨S1x1, .f32⟩
  | 14 => ⟨S1000000x1, .f32⟩
  | 15 => ⟨S1000000, .f32⟩
  | 16 => ⟨S2000000, .f32⟩
  | 17 => ⟨S_, .f32⟩
  | 18 => ⟨S2000000, .f32⟩
  | 19 => ⟨S_, .f32⟩
  | 20 => ⟨S150000, .f32⟩
  | 21 => ⟨S2000000x1, .i32⟩
  | 22 => ⟨S150000, .f32⟩
  | 23 => ⟨S_, .f32⟩
  | 24 => ⟨S150000, .f32⟩
  | 25 => ⟨S150000, .i1⟩
  | 26 => ⟨S_, .f32⟩
  | 27 => ⟨S150000, .f32⟩
  | 28 => ⟨S150000, .f32⟩
  | 29 => ⟨S150000, .f32⟩
  | 30 => ⟨S_, .f32⟩
  | 31 => ⟨S_, .f32⟩
  | 32 => ⟨S150000, .f32⟩
  | 33 => ⟨S150000, .f32⟩
  | 34 => ⟨S_, .i32⟩
  | 35 => ⟨S2000000, .i32⟩
  | 36 => ⟨S2000000, .i1⟩
  | 37 => ⟨S_, .i32⟩
  | 38 => ⟨S2000000, .i32⟩
  | 39 => ⟨S2000000, .i32⟩
  | 40 => ⟨S2000000, .i32⟩
  | 41 => ⟨S2000000x1, .i32⟩
  | 42 => ⟨S2000000, .f32⟩
  | 43 => ⟨S_, .i32⟩
  | 44 => ⟨S2000000, .i32⟩
  | 45 => ⟨S2000000, .i1⟩
  | 46 => ⟨S_, .i32⟩
  | 47 => ⟨S2000000, .i32⟩
  | 48 => ⟨S2000000, .i32⟩
  | 49 => ⟨S2000000, .i32⟩
  | 50 => ⟨S2000000x1, .i32⟩
  | 51 => ⟨S2000000, .f32⟩
  | 52 => ⟨S2000000, .f32⟩
  | 53 => ⟨S2000000, .f32⟩
  | 54 => ⟨S2000000x1, .f32⟩
  | 55 => ⟨S150000x64, .f32⟩
  | 56 => ⟨S_, .f32⟩
  | 57 => ⟨S150000x64, .f32⟩
  | 58 => ⟨S150000x64, .f32⟩
  | 59 => ⟨S_, .i32⟩
  | 60 => ⟨S2000000, .i32⟩
  | 61 => ⟨S2000000, .i1⟩
  | 62 => ⟨S_, .i32⟩
  | 63 => ⟨S2000000, .i32⟩
  | 64 => ⟨S2000000, .i32⟩
  | 65 => ⟨S2000000, .i32⟩
  | 66 => ⟨S2000000x1, .i32⟩
  | 67 => ⟨S2000000x64, .f32⟩
  | 68 => ⟨S2000000x64, .f32⟩
  | 69 => ⟨S2000000x64, .f32⟩
  | 70 => ⟨S_, .f32⟩
  | 71 => ⟨S150000x64, .f32⟩
  | 72 => ⟨S2000000x1, .i32⟩
  | 73 => ⟨S150000x64, .f32⟩
  | 74 => ⟨S_, .f32⟩
  | 75 => ⟨S150000x64, .f32⟩
  | 76 => ⟨S150000x64, .f32⟩
  | 77 => ⟨S150000x64, .f32⟩
  | 78 => ⟨S_, .i32⟩
  | 79 => ⟨S2000000, .i32⟩
  | 80 => ⟨S2000000, .i1⟩
  | 81 => ⟨S_, .i32⟩
  | 82 => ⟨S2000000, .i32⟩
  | 83 => ⟨S2000000, .i32⟩
  | 84 => ⟨S2000000, .i32⟩
  | 85 => ⟨S2000000x1, .i32⟩
  | 86 => ⟨S2000000x64, .f32⟩
  | 87 => ⟨S2000000x64, .f32⟩
  | 88 => ⟨S2000000x64, .f32⟩
  | 89 => ⟨S_, .f32⟩
  | 90 => ⟨S150000x64, .f32⟩
  | 91 => ⟨S2000000x1, .i32⟩
  | 92 => ⟨S150000x64, .f32⟩
  | 93 => ⟨S_, .f32⟩
  | 94 => ⟨S150000x64, .f32⟩
  | 95 => ⟨S150000x64, .f32⟩
  | 96 => ⟨S150000x64, .f32⟩
  | 97 => ⟨S_, .i32⟩
  | 98 => ⟨S2000000, .i32⟩
  | 99 => ⟨S2000000, .i1⟩
  | 100 => ⟨S_, .i32⟩
  | 101 => ⟨S2000000, .i32⟩
  | 102 => ⟨S2000000, .i32⟩
  | 103 => ⟨S2000000, .i32⟩
  | 104 => ⟨S2000000x1, .i32⟩
  | 105 => ⟨S2000000x64, .f32⟩
  | 106 => ⟨S2000000x64, .f32⟩
  | 107 => ⟨S2000000x64, .f32⟩
  | 108 => ⟨S_, .f32⟩
  | 109 => ⟨S150000x64, .f32⟩
  | 110 => ⟨S2000000x1, .i32⟩
  | 111 => ⟨S150000x64, .f32⟩
  | 112 => ⟨S_, .f32⟩
  | 113 => ⟨S150000x64, .f32⟩
  | 114 => ⟨S150000x64, .f32⟩
  | 115 => ⟨S150000x64, .f32⟩
  | 116 => ⟨S100000x64, .f32⟩
  | 117 => ⟨S50000x64, .f32⟩
  | 118 => ⟨S_, .i32⟩
  | 119 => ⟨S16384, .i32⟩
  | 120 => ⟨S16384, .i1⟩
  | 121 => ⟨S_, .i32⟩
  | 122 => ⟨S16384, .i32⟩
  | 123 => ⟨S16384, .i32⟩
  | 124 => ⟨S16384, .i32⟩
  | 125 => ⟨S16384x1, .i32⟩
  | 126 => ⟨S16384x64, .f32⟩
  | 127 => ⟨S_, .i32⟩
  | _ => ⟨S100000x64, .f32⟩

abbrev hbmTy0_1 (i : Nat) : BufTy := match i % 128 with
  | 0 => ⟨S16384, .i32⟩
  | 1 => ⟨S16384, .i1⟩
  | 2 => ⟨S_, .i32⟩
  | 3 => ⟨S16384, .i32⟩
  | 4 => ⟨S16384, .i32⟩
  | 5 => ⟨S16384, .i32⟩
  | 6 => ⟨S16384x1, .i32⟩
  | 7 => ⟨S16384x64, .f32⟩
  | 8 => ⟨S16384, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S20000x64, .f32⟩
  | .local _ .vmem, ⟨1, _⟩ => ⟨S20000x64, .f32⟩
  | .local _ .vmem, ⟨2, _⟩ => ⟨S64x64, .f32⟩
  | .local _ .vmem, ⟨3, _⟩ => ⟨S64x1, .f32⟩
  | .local _ .vmem, ⟨4, _⟩ => ⟨S1x1, .f32⟩
  | .local _ .vmem, ⟨5, _⟩ => ⟨S20000x1, .f32⟩
  | .local _ .vmem, ⟨6, _⟩ => ⟨S20000x1, .f32⟩
  | .local _ .vmem, ⟨7, _⟩ => ⟨S4096x64, .f32⟩
  | .local _ .vmem, ⟨8, _⟩ => ⟨S4096x64, .f32⟩
  | .local _ .vmem, ⟨9, _⟩ => ⟨S4096x64, .f32⟩
  | .local _ .vmem, ⟨10, _⟩ => ⟨S4096x64, .f32⟩
  | .local _ .vmem, ⟨11, _⟩ => ⟨S4096, .f32⟩
  | .local _ .vmem, ⟨12, _⟩ => ⟨S4096, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_12 : Ref sig .tc := ⟨.hbm, 78, rfl⟩
abbrev main_v53 : Ref sig .tc := ⟨.hbm, 79, rfl⟩
abbrev main_v54 : Ref sig .tc := ⟨.hbm, 80, rfl⟩
abbrev main_c_13 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_14 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_16 : Ref sig .tc := ⟨.hbm, 97, rfl⟩
abbrev main_v68 : Ref sig .tc := ⟨.hbm, 98, rfl⟩
abbrev main_v69 : Ref sig .tc := ⟨.hbm, 99, rfl⟩
abbrev main_c_17 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_18 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_19 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_20 : Ref sig .tc := ⟨.hbm, 118, rfl⟩
abbrev main_v85 : Ref sig .tc := ⟨.hbm, 119, rfl⟩
abbrev main_v86 : Ref sig .tc := ⟨.hbm, 120, rfl⟩
abbrev main_c_21 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_c_22 : Ref sig .tc := ⟨.hbm, 127, rfl⟩
abbrev main_v92 : Ref sig .tc := ⟨.hbm, 128, rfl⟩
abbrev main_v93 : Ref sig .tc := ⟨.hbm, 129, rfl⟩
abbrev main_c_23 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S20000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  shapeCasts_S1_S1x1 : S1.ShapeCasts S1x1
  inb_S20000x64_S20000x64_0_0 : ∀ a, (![0, 0] : Fin 2 → Nat) a + S20000x64.size a ≤ S20000x64.size a
  h_S20000x64 : 0 < S20000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S20000x1 : S1x1.Broadcasts S20000x1
  inb_S20000x1_S20000x1_0_0 : ∀ a, (![0, 0] : Fin 2 → Nat) a + S20000x1.size a ≤ S20000x1.size a
  h_S20000x1 : 0 < S20000x1.numel
  shapeCasts_S1000000x1_S1000000 : S1000000x1.ShapeCasts S1000000
  concatenates_S1000000_S1000000_S2000000_d0 : Shape.Concatenates [S1000000, S1000000] S2000000 0
  bcast_S_S2000000 : S_.BroadcastsInDim S2000000 (![] : Fin 0 → Fin S2000000.rank)
  bcast_S_S150000 : S_.BroadcastsInDim S150000 (![] : Fin 0 → Fin S150000.rank)
  bcast_S2000000_S2000000x1_0 : S2000000.BroadcastsInDim S2000000x1 (![0] : Fin 1 → Fin S2000000x1.rank)
  concatenates_S100000x64_S50000x64_S150000x64_d0 : Shape.Concatenates [S100000x64, S50000x64] S150000x64 0
  bcast_S_S150000x64 : S_.BroadcastsInDim S150000x64 (![] : Fin 0 → Fin S150000x64.rank)
  bcast_S2000000x1_S2000000x64_0_1 : S2000000x1.BroadcastsInDim S2000000x64 (![0, 1] : Fin 2 → Fin S2000000x64.rank)
  slices_S150000x64_S100000x64_0_0 : S150000x64.Slices ![0, 0] S100000x64
  slices_S150000x64_S50000x64_100000_0 : S150000x64.Slices ![100000, 0] S50000x64
  bcast_S_S16384 : S_.BroadcastsInDim S16384 (![] : Fin 0 → Fin S16384.rank)
  bcast_S16384_S16384x1_0 : S16384.BroadcastsInDim S16384x1 (![0] : Fin 1 → Fin S16384x1.rank)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S4096x64_S4096 : S4096x64.Reduces [1] S4096
  inb_S4096_S4096_0 : ∀ a, (![0] : Fin 1 → Nat) a + S4096.size a ≤ S4096.size a
  h_S4096 : 0 < S4096.numel
  dot_S20000x64_S64x64_S20000x64_1_0_0_1_n_n_wf : DotDims.WF S20000x64 S64x64 S20000x64 [1] [0] [0] [1] [] []
  dot_S20000x64_S64x1_S20000x1_1_0_0_1_n_n_wf : DotDims.WF S20000x64 S64x1 S20000x1 [1] [0] [0] [1] [] []
  scatter_S150000_S2000000x1_S2000000_n_0_0_1_wf : ScatterDims.WF S150000 S2000000x1 S2000000 [] [0] [0] 1
  gather_S150000_S2000000x1_S2000000_n_0_n_n_0_1_1_wf : GatherDims.WF S150000 S2000000x1 S2000000 [] [0] [] [0] [] 1 ![1]
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  gather_S100000x64_S16384x1_S16384x64_1_0_n_n_0_1_164_wf : GatherDims.WF S100000x64 S16384x1 S16384x64 [1] [0] [] [0] [] 1 ![1, 64]
  gather_S50000x64_S16384x1_S16384x64_1_0_n_n_0_1_164_wf : GatherDims.WF S50000x64 S16384x1 S16384x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S1000000x64.size a
  hwx0_0 : ∀ i : grid0.Coords, EltTy.bits .f32 = 32 ∨ (Rect.block (s := S1000000x64) S20000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S20000x1.size a ≤ S1000000x1.size a
  hwx0_4 : ∀ i : grid0.Coords, EltTy.bits .f32 = 32 ∨ (Rect.block (s := S1000000x1) S20000x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S16384x64.size a
  hwx1_0 : ∀ i : grid1.Coords, EltTy.bits .f32 = 32 ∨ (Rect.block (s := S16384x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S16384x64.size a
  hwx1_1 : ∀ i : grid1.Coords, EltTy.bits .f32 = 32 ∨ (Rect.block (s := S16384x64) S4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096.size a ≤ S16384.size a
  hwx1_2 : ∀ i : grid1.Coords, EltTy.bits .f32 = 32 ∨ (Rect.block (s := S16384) S4096.size (cc1_transform_2 i) (hinb1_2 i)).WholeWords (EltTy.packing .f32)

variable [Facts₀]

def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def dot_S20000x64_S64x1_S20000x1_1_0_0_1_n_n : DotDims S20000x64 S64x1 S20000x1 where
  lhsContracting := [1]
  rhsContracting := [0]
  lhsNonContracting := [0]
  rhsNonContracting := [1]
  lhsBatch := []
  rhsBatch := []
  wf := dot_S20000x64_S64x1_S20000x1_1_0_0_1_n_n_wf
def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def gather_S150000_S2000000x1_S2000000_n_0_n_n_0_1_1 : GatherDims S150000 S2000000x1 S2000000 where
  offsetDims := []
  collapsedSliceDims := [0]
  operandBatchingDims := []
  startIndicesBatchingDims := []
  startIndexMap := [0]
  indexVectorDim := 1
  sliceSizes := ![1]
  wf := gather_S150000_S2000000x1_S2000000_n_0_n_n_0_1_1_wf
def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S50000x64_S16384x1_S16384x64_1_0_n_n_0_1_164 : GatherDims S50000x64 S16384x1 S16384x64 where
  offsetDims := [1]
  collapsedSliceDims := [0]
  operandBatchingDims := []
  startIndicesBatchingDims := []
  startIndexMap := [0]
  indexVectorDim := 1
  sliceSizes := ![1, 64]
  wf := gather_S50000x64_S16384x1_S16384x64_1_0_n_n_0_1_164_wf

abbrev win0_0 : Pipeline.Window sig grid0 :=
  Pipeline.Window.ofSpec (Memref.whole main_arg5) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S20000x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v91) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v98) S4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v99) S4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S64x64 : Shape := ⟨2, ![64, 64]⟩
abbrev S64x1 : Shape := ⟨2, ![64, 1]⟩
abbrev S1 : Shape := ⟨1, ![1]⟩
abbrev S1000000x64 : Shape := ⟨2, ![1000000, 64]⟩
abbrev S2x2000000 : Shape := ⟨2, ![2, 2000000]⟩
abbrev S16384 : Shape := ⟨1, ![16384]⟩
abbrev S1x2000000 : Shape := ⟨2, ![1, 2000000]⟩
abbrev S2000000 : Shape := ⟨1, ![2000000]⟩
abbrev S1000000x1 : Shape := ⟨2, ![1000000, 1]⟩
abbrev S1x1 : Shape := ⟨2, ![1, 1]⟩
abbrev S2000000x1 : Shape := ⟨2, ![2000000, 1]⟩
abbrev S_ : Shape := ⟨0, ![]⟩
abbrev S150000 : Shape := ⟨1, ![150000]⟩
abbrev S150000x64 : Shape := ⟨2, ![150000, 64]⟩
abbrev S2000000x64 : Shape := ⟨2, ![2000000, 64]⟩
abbrev S16384x1 : Shape := ⟨2, ![16384, 1]⟩
abbrev S16384x64 : Shape := ⟨2, ![16384, 64]⟩

abbrev nBuf : Space → Nat
  | .hbm => 142
  | .vmem => 0
  | .smem => 0
  | _ => 0

abbrev hbmTy0_0 (i : Nat) : BufTy := match i % 128 with
  | 0 => ⟨S100000x64, .f32⟩
  | 1 => ⟨S50000x64, .f32⟩
  | 2 => ⟨S64x64, .f32⟩
  | 3 => ⟨S64x1, .f32⟩
  | 4 => ⟨S1, .f32⟩
  | 5 => ⟨S1000000x64, .f32⟩
  | 6 => ⟨S2x2000000, .i32⟩
  | 7 => ⟨S16384, .i32⟩
  | 8 => ⟨S16384, .i32⟩
  | 9 => ⟨S1x2000000, .i32⟩
  | 10 => ⟨S2000000, .i32⟩
  | 11 => ⟨S1x2000000, .i32⟩
  | 12 => ⟨S2000000, .i32⟩
  | 13 => ⟨S1000000x64, .f32⟩
  | 14 => ⟨S1000000x1, .f32⟩
  | 15 => ⟨S1x1, .f32⟩
  | 16 => ⟨S1000000x1, .f32⟩
  | 17 => ⟨S1000000x1, .f32⟩
  | 18 => ⟨S2000000x1, .f32⟩
  | 19 => ⟨S2000000, .f32⟩
  | 20 => ⟨S_, .f32⟩
  | 21 => ⟨S2000000, .f32⟩
  | 22 => ⟨S_, .f32⟩
  | 23 => ⟨S150000, .f32⟩
  | 24 => ⟨S2000000x1, .i32⟩
  | 25 => ⟨S150000, .f32⟩
  | 26 => ⟨S_, .f32⟩
  | 27 => ⟨S150000, .f32⟩
  | 28 => ⟨S150000, .i1⟩
  | 29 => ⟨S_, .f32⟩
  | 30 => ⟨S150000, .f32⟩
  | 31 => ⟨S150000, .f32⟩
  | 32 => ⟨S150000, .f32⟩
  | 33 => ⟨S_, .f32⟩
  | 34 => ⟨S_, .f32⟩
  | 35 => ⟨S150000, .f32⟩
  | 36 => ⟨S150000, .f32⟩
  | 37 => ⟨S_, .i32⟩
  | 38 => ⟨S2000000, .i32⟩
  | 39 => ⟨S2000000, .i1⟩
  | 40 => ⟨S_, .i32⟩
  | 41 => ⟨S2000000, .i32⟩
  | 42 => ⟨S2000000, .i32⟩
  | 43 => ⟨S2000000, .i32⟩
  | 44 => ⟨S2000000x1, .i32⟩
  | 45 => ⟨S2000000, .f32⟩
  | 46 => ⟨S_, .i32⟩
  | 47 => ⟨S2000000, .i32⟩
  | 48 => ⟨S2000000, .i1⟩
  | 49 => ⟨S_, .i32⟩
  | 50 => ⟨S2000000, .i32⟩
  | 51 => ⟨S2000000, .i32⟩
  | 52 => ⟨S2000000, .i32⟩
  | 53 => ⟨S2000000x1, .i32⟩
  | 54 => ⟨S2000000, .f32⟩
  | 55 => ⟨S2000000, .f32⟩
  | 56 => ⟨S2000000, .f32⟩
  | 57 => ⟨S2000000x1, .f32⟩
  | 58 => ⟨S150000x64, .f32⟩
  | 59 => ⟨S_, .f32⟩
  | 60 => ⟨S150000x64, .f32⟩
  | 61 => ⟨S150000x64, .f32⟩
  | 62 => ⟨S_, .i32⟩
  | 63 => ⟨S2000000, .i32⟩
  | 64 => ⟨S2000000, .i1⟩
  | 65 => ⟨S_, .i32⟩
  | 66 => ⟨S2000000, .i32⟩
  | 67 => ⟨S2000000, .i32⟩
  | 68 => ⟨S2000000, .i32⟩
  | 69 => ⟨S2000000x1, .i32⟩
  | 70 => ⟨S2000000x64, .f32⟩
  | 71 => ⟨S2000000x64, .f32⟩
  | 72 => ⟨S2000000x64, .f32⟩
  | 73 => ⟨S_, .f32⟩
  | 74 => ⟨S150000x64, .f32⟩
  | 75 => ⟨S2000000x1, .i32⟩
  | 76 => ⟨S150000x64, .f32⟩
  | 77 => ⟨S_, .f32⟩
  | 78 => ⟨S150000x64, .f32⟩
  | 79 => ⟨S150000x64, .f32⟩
  | 80 => ⟨S150000x64, .f32⟩
  | 81 => ⟨S_, .i32⟩
  | 82 => ⟨S2000000, .i32⟩
  | 83 => ⟨S2000000, .i1⟩
  | 84 => ⟨S_, .i32⟩
  | 85 => ⟨S2000000, .i32⟩
  | 86 => ⟨S2000000, .i32⟩
  | 87 => ⟨S2000000, .i32⟩
  | 88 => ⟨S2000000x1, .i32⟩
  | 89 => ⟨S2000000x64, .f32⟩
  | 90 => ⟨S2000000x64, .f32⟩
  | 91 => ⟨S2000000x64, .f32⟩
  | 92 => ⟨S_, .f32⟩
  | 93 => ⟨S150000x64, .f32⟩
  | 94 => ⟨S2000000x1, .i32⟩
  | 95 => ⟨S150000x64, .f32⟩
  | 96 => ⟨S_, .f32⟩
  | 97 => ⟨S150000x64, .f32⟩
  | 98 => ⟨S150000x64, .f32⟩
  | 99 => ⟨S150000x64, .f32⟩
  | 100 => ⟨S_, .i32⟩
  | 101 => ⟨S2000000, .i32⟩
  | 102 => ⟨S2000000, .i1⟩
  | 103 => ⟨S_, .i32⟩
  | 104 => ⟨S2000000, .i32⟩
  | 105 => ⟨S2000000, .i32⟩
  | 106 => ⟨S2000000, .i32⟩
  | 107 => ⟨S2000000x1, .i32⟩
  | 108 => ⟨S2000000x64, .f32⟩
  | 109 => ⟨S2000000x64, .f32⟩
  | 110 => ⟨S2000000x64, .f32⟩
  | 111 => ⟨S_, .f32⟩
  | 112 => ⟨S150000x64, .f32⟩
  | 113 => ⟨S2000000x1, .i32⟩
  | 114 => ⟨S150000x64, .f32⟩
  | 115 => ⟨S_, .f32⟩
  | 116 => ⟨S150000x64, .f32⟩
  | 117 => ⟨S150000x64, .f32⟩
  | 118 => ⟨S150000x64, .f32⟩
  | 119 => ⟨S100000x64, .f32⟩
  | 120 => ⟨S50000x64, .f32⟩
  | 121 => ⟨S_, .i32⟩
  | 122 => ⟨S16384, .i32⟩
  | 123 => ⟨S16384, .i1⟩
  | 124 => ⟨S_, .i32⟩
  | 125 => ⟨S16384, .i32⟩
  | 126 => ⟨S16384, .i32⟩
  | 127 => ⟨S16384, .i32⟩
  | _ => ⟨S100000x64, .f32⟩

abbrev hbmTy0_1 (i : Nat) : BufTy := match i % 128 with
  | 0 => ⟨S16384x1, .i32⟩
  | 1 => ⟨S16384x64, .f32⟩
  | 2 => ⟨S_, .i32⟩
  | 3 => ⟨S16384, .i32⟩
  | 4 => ⟨S16384, .i1⟩
  | 5 => ⟨S_, .i32⟩
  | 6 => ⟨S16384, .i32⟩
  | 7 => ⟨S16384, .i32⟩
  | 8 => ⟨S16384, .i32⟩
  | 9 => ⟨S16384x1, .i32⟩
  | 10 => ⟨S16384x64, .f32⟩
  | 11 => ⟨S16384x64, .f32⟩
  | 12 => ⟨S_, .f32⟩
  | 13 => ⟨S16384, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_12 : Ref sig .tc := ⟨.hbm, 81, rfl⟩
abbrev main_v56 : Ref sig .tc := ⟨.hbm, 82, rfl⟩
abbrev main_v57 : Ref sig .tc := ⟨.hbm, 83, rfl⟩
abbrev main_c_13 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_15 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_16 : Ref sig .tc := ⟨.hbm, 100, rfl⟩
abbrev main_v71 : Ref sig .tc := ⟨.hbm, 101, rfl⟩
abbrev main_v72 : Ref sig .tc := ⟨.hbm, 102, rfl⟩
abbrev main_c_17 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_18 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_19 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_c_20 : Ref sig .tc := ⟨.hbm, 121, rfl⟩
abbrev main_v88 : Ref sig .tc := ⟨.hbm, 122, rfl⟩
abbrev main_v89 : Ref sig .tc := ⟨.hbm, 123, rfl⟩
abbrev main_c_21 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_22 : Ref sig .tc := ⟨.hbm, 130, rfl⟩
abbrev main_v95 : Ref sig .tc := ⟨.hbm, 131, rfl⟩
abbrev main_v96 : Ref sig .tc := ⟨.hbm, 132, rfl⟩
abbrev main_c_23 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_24 : Ref sig .tc := ⟨.hbm, 140, rfl⟩
abbrev main_v103 : Ref sig .tc := ⟨.hbm, 141, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  concatenates_S1000000x1_S1000000x1_S2000000x1_d0 : Shape.Concatenates [S1000000x1, S1000000x1] S2000000x1 0
  shapeCasts_S2000000x1_S2000000 : S2000000x1.ShapeCasts S2000000
  bcast_S_S2000000 : S_.BroadcastsInDim S2000000 (![] : Fin 0 → Fin S2000000.rank)
  bcast_S_S150000 : S_.BroadcastsInDim S150000 (![] : Fin 0 → Fin S150000.rank)
  bcast_S2000000_S2000000x1_0 : S2000000.BroadcastsInDim S2000000x1 (![0] : Fin 1 → Fin S2000000x1.rank)
  concatenates_S100000x64_S50000x64_S150000x64_d0 : Shape.Concatenates [S100000x64, S50000x64] S150000x64 0
  bcast_S_S150000x64 : S_.BroadcastsInDim S150000x64 (![] : Fin 0 → Fin S150000x64.rank)
  bcast_S2000000x1_S2000000x64_0_1 : S2000000x1.BroadcastsInDim S2000000x64 (![0, 1] : Fin 2 → Fin S2000000x64.rank)
  slices_S150000x64_S100000x64_0_0 : S150000x64.Slices ![0, 0] S100000x64
  slices_S150000x64_S50000x64_100000_0 : S150000x64.Slices ![100000, 0] S50000x64
  bcast_S_S16384 : S_.BroadcastsInDim S16384 (![] : Fin 0 → Fin S16384.rank)
  bcast_S16384_S16384x1_0 : S16384.BroadcastsInDim S16384x1 (![0] : Fin 1 → Fin S16384x1.rank)
  reducesTo_S16384x64_S16384_d1 : S16384x64.ReducesTo [1] S16384
  h_S_ : 0 < S_.numel
  dot_S1000000x64_S64x64_S1000000x64_1_0_0_1_n_n_wf : DotDims.WF S1000000x64 S64x64 S1000000x64 [1] [0] [0] [1] [] []
  dot_S1000000x64_S64x1_S1000000x1_1_0_0_1_n_n_wf : DotDims.WF S1000000x64 S64x1 S1000000x1 [1] [0] [0] [1] [] []
  scatter_S150000_S2000000x1_S2000000_n_0_0_1_wf : ScatterDims.WF S150000 S2000000x1 S2000000 [] [0] [0] 1
  gather_S150000_S2000000x1_S2000000_n_0_n_n_0_1_1_wf : GatherDims.WF S150000 S2000000x1 S2000000 [] [0] [] [0] [] 1 ![1]
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  gather_S100000x64_S16384x1_S16384x64_1_0_n_n_0_1_164_wf : GatherDims.WF S100000x64 S16384x1 S16384x64 [1] [0] [] [0] [] 1 ![1, 64]
  gather_S50000x64_S16384x1_S16384x64_1_0_n_n_0_1_164_wf : GatherDims.WF S50000x64 S16384x1 S16384x64 [1] [0] [] [0] [] 1 ![1, 64]

variable [Facts₀]

def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf
def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def gather_S150000_S2000000x1_S2000000_n_0_n_n_0_1_1 : GatherDims S150000 S2000000x1 S2000000 where
  offsetDims := []
  collapsedSliceDims := [0]
  operandBatchingDims := []
  startIndicesBatchingDims := []
  startIndexMap := [0]
  indexVectorDim := 1
  sliceSizes := ![1]
  wf := gather_S150000_S2000000x1_S2000000_n_0_n_n_0_1_1_wf
def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S50000x64_S16384x1_S16384x64_1_0_n_n_0_1_164 : GatherDims S50000x64 S16384x1 S16384x64 where
  offsetDims := [1]
  collapsedSliceDims := [0]
  operandBatchingDims := []
  startIndicesBatchingDims := []
  startIndexMap := [0]
  indexVectorDim := 1
  sliceSizes := ![1, 64]
  wf := gather_S50000x64_S16384x1_S16384x64_1_0_n_n_0_1_164_wf

class Facts : Prop extends Facts₀ where

variable [Facts]
-- ==== Proof.Spec.lean ====
/-
  The two closed forms the certificate meets, each one function of whole arrays, index by index, on the extended reals.

  * `edgeWeight`: a row of edge features projected twice and shifted: entry (r, 0) is
    (∑ₖ (∑ⱼ ef[r, j] · F[j, k]) · w[k, 0]) + b, for a bias b.
  * `score`: the row-wise dot product of two [16384, 64] arrays: entry b is ∑ₖ A[b, k] · B[b, k].
-/
import Idealize.ShloMosaic.Lib.ValueIdx
import Idealize.ShloMosaic.PureOps.Ideal

noncomputable section

open scoped BigOperators

namespace Cert.Spec

open Idealize.ShloMosaic Idealize.ShloMosaic.ValueIdx

/-- Entry (r, 0): the row r of `ef` times `Fm`, then times the column `pw`, plus the bias. -/
def edgeWeight (ef : FVec Ideal ⟨2, ![1000000, 64]⟩ .f32) (Fm : FVec Ideal ⟨2, ![64, 64]⟩ .f32)
    (pw : FVec Ideal ⟨2, ![64, 1]⟩ .f32) (pb : EReal) : FVec Ideal ⟨2, ![1000000, 1]⟩ .f32 :=
  fun i => (∑ k : Fin 64, (∑ j : Fin 64, ef (ix2 (⟨(i 0).val, (i 0).isLt⟩ : Fin 1000000) j) * Fm (ix2 j k)) * pw (ix2 k (0 : Fin 1)))
    + pb

/-- Entry b: the dot product of row b of `A` with row b of `B`. -/
def score (A B : FVec Ideal ⟨2, ![16384, 64]⟩ .f32) : FVec Ideal ⟨1, ![16384]⟩ .f32 :=
  fun i => ∑ k : Fin 64, A (ix2 (⟨(i 0).val, (i 0).isLt⟩ : Fin 16384) k) * B (ix2 (⟨(i 0).val, (i 0).isLt⟩ : Fin 16384) k)

end Cert.Spec

end
-- ==== Proof.ScoreRegion.lean ====
/-
  The second region of the idealized kernel, read as a value: over a grid of four points, each point takes a block of 4096
  rows of two [16384, 64] arrays, multiplies them entry by entry and sums each row's 64 products. The blocks tile the
  [16384] result array, so after the region it holds, at row b, the dot product of row b of the two arrays as the region
  found them (`Spec.score`). A lane sum at the ideal instance is the plain finite sum on the extended reals.
-/
import proofs.«130227_j64604898066610_1_alg».proof.Proof.Gen.KernelIdeal.Frame
import proofs.«130227_j64604898066610_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ScoreRegion

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

theorem hz1 : (![0] : Fin 1 → Nat) = fun _ => 0 := funext fun a => by fin_cases a; rfl
theorem hz2 : (![0, 0] : Fin 2 → Nat) = fun _ => 0 := funext fun a => by fin_cases a <;> rfl

/-- The body's one stored value at an index: the dot product of the two loaded blocks' rows. -/
theorem pay_apply (x0 x1 : Vec Ideal S4096x64 .f32) (j : S4096.Idx) :
    k1_pay1 (F := Ideal) x0 x1 j
      = ∑ k : Fin 64, x0 (ix2 (⟨(j 0).val, (j 0).isLt⟩ : Fin 4096) k) * x1 (ix2 (⟨(j 0).val, (j 0).isLt⟩ : Fin 4096) k) := by
  unfold k1_pay1
  dsimp only
  rw [shapeCast_self, shapeCast_self]
  refine (Ideal.multiReduction_add_single (mulf x0 x1) 0x00000000#32 reduces_S4096x64_S4096 _ _ j).trans ?_
  refine Finset.sum_congr rfl fun k _ => ?_
  rw [mulf_apply]
  have e : (reduces_S4096x64_S4096.lift j k) = ix2 (⟨(j 0).val, (j 0).isLt⟩ : Fin 4096) (⟨k.val, k.isLt⟩ : Fin 64) :=
    funext fun a => Fin.ext (by match a with | ⟨0, _⟩ => rfl | ⟨1, _⟩ => rfl)
  rw [e]
  rfl

/-- The printed index maps over the four grid points: both input windows move with the output window along the rows
    and stay at column block 0; the output's block index is the point's number. -/
theorem idx_facts : ∀ t : Fin cfg1.N, win1_0.index t (0 : Fin 2) = win1_2.index t (0 : Fin 1)
    ∧ win1_0.index t (1 : Fin 2) = 0
    ∧ win1_1.index t (0 : Fin 2) = win1_2.index t (0 : Fin 1)
    ∧ win1_1.index t (1 : Fin 2) = 0
    ∧ win1_2.index t (0 : Fin 1) ≤ 3 :=
  (by decide +kernel : ∀ t : Fin grid1.N, _)

/-- Every row block is some point's. -/
theorem idx_onto : ∀ q : Fin 4, ∃ t : Fin cfg1.N, win1_2.index t (0 : Fin 1) = q.val :=
  (by decide +kernel : ∀ q : Fin 4, ∃ t : Fin grid1.N, win1_2.index t (0 : Fin 1) = q.val)

section
variable (V : (c : Dev nD) → (b : Ref sig .tc) → Buf (Elt Ideal) ((c : Thread nD τ).loc b))

/-- The two gathered arrays as the region finds them, at their literal type. -/
abbrev guSel (c : Dev nD) : FVec Ideal S16384x64 .f32 := V c main_v91
abbrev giSel (c : Dev nD) : FVec Ideal S16384x64 .f32 := V c main_v98

/-- What point `t` writes back is block `t` of the row-wise dot product of the two gathered arrays as the region finds them. -/
theorem flushed_eq (c : Dev nD) (t : Fin cfg1.N) :
    (dat1 V c).flushed 2 t = ((cfg1.win 2).blk t).view.read (Elt Ideal) (score (guSel V c) (giSel V c)) := by
  show (cfg1.win 2).cut (grid1.coords t) ((dat1 V c).after 2 t) = _
  rw [after1_2]
  unfold out1_2
  rw [View.canon_unit_zero hz1]
  simp only [View.ld_unit_zero (S := S4096x64) hz2]
  obtain ⟨e0, e1, e2, e3, e4⟩ := idx_facts t
  funext j
  show k1_pay1 (F := Ideal) (iblk1 V c 0 t) (iblk1 V c 1 t) j = score (guSel V c) (giSel V c) (((cfg1.win 2).blk t).view.emb j)
  refine (pay_apply (iblk1 V c 0 t) (iblk1 V c 1 t) j).trans ?_
  unfold score
  refine Finset.sum_congr rfl fun k _ => ?_
  have h0 : ((cfg1.win 0).blk t).view.emb (ix2 (⟨(j 0).val, (j 0).isLt⟩ : Fin 4096) k)
      = ix2 (⟨((((cfg1.win 2).blk t).view.emb j) 0).val, ((((cfg1.win 2).blk t).view.emb j) 0).isLt⟩ : Fin 16384) k := by
    funext a; apply Fin.ext
    match a with
    | ⟨0, _⟩ => show win1_0.index t (0 : Fin 2) * 4096 + 1 * (j 0).val = win1_2.index t (0 : Fin 1) * 4096 + 1 * (j 0).val; omega
    | ⟨1, _⟩ => show win1_0.index t (1 : Fin 2) * 64 + 1 * k.val = k.val; omega
  have h1 : ((cfg1.win 1).blk t).view.emb (ix2 (⟨(j 0).val, (j 0).isLt⟩ : Fin 4096) k)
      = ix2 (⟨((((cfg1.win 2).blk t).view.emb j) 0).val, ((((cfg1.win 2).blk t).view.emb j) 0).isLt⟩ : Fin 16384) k := by
    funext a; apply Fin.ext
    match a with
    | ⟨0, _⟩ => show win1_1.index t (0 : Fin 2) * 4096 + 1 * (j 0).val = win1_2.index t (0 : Fin 1) * 4096 + 1 * (j 0).val; omega
    | ⟨1, _⟩ => show win1_1.index t (1 : Fin 2) * 64 + 1 * k.val = k.val; omega
  show guSel V c (((cfg1.win 0).blk t).view.emb (ix2 (⟨(j 0).val, (j 0).isLt⟩ : Fin 4096) k))
      * giSel V c (((cfg1.win 1).blk t).view.emb (ix2 (⟨(j 0).val, (j 0).isLt⟩ : Fin 4096) k)) = _
  rw [h0, h1]

/-- An index of the result array is in point `t`'s block iff its one coordinate is in the block's range. -/
theorem mem_blk (t : Fin cfg1.N) (i : S16384.Idx) :
    i ∈ ((cfg1.win 2).blk t).view.set ↔ ∀ a : Fin 1, win1_2.index t a * S4096.size a ≤ (i a).val ∧ (i a).val < win1_2.index t a * S4096.size a + S4096.size a := by
  show i ∈ ((View.whole main_v99).slice (win1_2.rect t)).set ↔ _
  rw [View.set_slice_whole, Rect.mem_set_unit]
  exact Iff.rfl

/-- The four blocks of 4096 rows tile the result array. -/
theorem cover (i : S16384.Idx) : ∃ t : Fin cfg1.N, (cfg1.win 2).flush t = true ∧ i ∈ ((cfg1.win 2).blk t).view.set := by
  have hi0 : (i 0).val < 16384 := (i 0).isLt
  obtain ⟨t, ht⟩ := idx_onto ⟨(i 0).val / 4096, by omega⟩
  have q0 : win1_2.index t (0 : Fin 1) = (i 0).val / 4096 := ht
  refine ⟨t, flush1_2 t, ?_⟩
  rw [mem_blk]
  intro a
  match a with
  | ⟨0, _⟩ => show win1_2.index t (0 : Fin 1) * 4096 ≤ (i 0).val ∧ (i 0).val < win1_2.index t (0 : Fin 1) * 4096 + 4096; omega

/-- The result array after the region: the row-wise dot product of the two gathered arrays as the region finds them. -/
theorem final (c : Dev nD) : (dat1 V c).arrAt 2 cfg1.N = score (guSel V c) (giSel V c) :=
  (dat1 V c).arrAt_eq_of_cover 2 _ (fun t _ => flushed_eq V c t) cover

end

end Cert.ScoreRegion

end
-- ==== Proof.EdgeRegion.lean ====
/-
  The first region of the idealized kernel, read as a value: over a grid of fifty points, each point takes a block of
  20000 rows of the [1000000, 64] edge features, multiplies it by the whole [64, 64] matrix, the product by the whole
  [64, 1] column, and adds the one bias entry. At the ideal instance a change of float format is the identity and a
  matrix product into a zero accumulator is the plain sum over the contracted coordinate, so entry (r, 0) of the block
  is (∑ₖ (∑ⱼ ef[r, j] · F[j, k]) · w[k, 0]) + b. The fifty blocks tile the [1000000, 1] result array, which therefore
  ends at `Spec.edgeWeight` of the arrays as the region found them.
-/
import proofs.«130227_j64604898066610_1_alg».proof.Proof.Gen.KernelIdeal.Frame
import proofs.«130227_j64604898066610_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.EdgeRegion

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

theorem hz2 : (![0, 0] : Fin 2 → Nat) = fun _ => 0 := funext fun a => by fin_cases a <;> rfl

/-! ## The two matrix products of the body, read at an index -/

-- the first product, [20000, 64] × [64, 64]: which operand entries an output entry and a contraction coordinate name
theorem lhsA_0 (i : S20000x64.Idx) (q : dot_S20000x64_S64x64_S20000x64_1_0_0_1_n_n.contr.Idx) :
    (dot_S20000x64_S64x64_S20000x64_1_0_0_1_n_n.lhsIdx i q 0).val = (i 0).val := by
  unfold DotDims.lhsIdx
  rw [dif_neg (show ¬(0 : Fin S20000x64.rank) ∈ dot_S20000x64_S64x64_S20000x64_1_0_0_1_n_n.lhsBatch by decide), dif_pos (show (0 : Fin S20000x64.rank) ∈ dot_S20000x64_S64x64_S20000x64_1_0_0_1_n_n.lhsNonContracting by decide)]
  rfl
theorem lhsA_1 (i : S20000x64.Idx) (q : dot_S20000x64_S64x64_S20000x64_1_0_0_1_n_n.contr.Idx) :
    (dot_S20000x64_S64x64_S20000x64_1_0_0_1_n_n.lhsIdx i q 1).val = (q ⟨0, by decide⟩).val :=
  dot_S20000x64_S64x64_S20000x64_1_0_0_1_n_n.lhsIdx_val_of_single rfl i q
theorem rhsA_0 (i : S20000x64.Idx) (q : dot_S20000x64_S64x64_S20000x64_1_0_0_1_n_n.contr.Idx) :
    (dot_S20000x64_S64x64_S20000x64_1_0_0_1_n_n.rhsIdx i q 0).val = (q ⟨0, by decide⟩).val :=
  dot_S20000x64_S64x64_S20000x64_1_0_0_1_n_n.rhsIdx_val_of_single rfl i q
theorem rhsA_1 (i : S20000x64.Idx) (q : dot_S20000x64_S64x64_S20000x64_1_0_0_1_n_n.contr.Idx) :
    (dot_S20000x64_S64x64_S20000x64_1_0_0_1_n_n.rhsIdx i q 1).val = (i 1).val := by
  unfold DotDims.rhsIdx
  rw [dif_neg (show ¬(1 : Fin S64x64.rank) ∈ dot_S20000x64_S64x64_S20000x64_1_0_0_1_n_n.rhsBatch by decide), dif_pos (show (1 : Fin S64x64.rank) ∈ dot_S20000x64_S64x64_S20000x64_1_0_0_1_n_n.rhsNonContracting by decide)]
  rfl

/-- Entry (r, c) of the first product into a zero accumulator: ∑ₖ l[r, k] · r[k, c]. -/
theorem mmA_apply {φ₁ φ₂ : FTy} (l : FVec Ideal S20000x64 φ₁) (r : FVec Ideal S64x64 φ₂) (p : Fin 20000) (c : Fin 64) :
    FloatOps.matmul dot_S20000x64_S64x64_S20000x64_1_0_0_1_n_n none l r (constant S20000x64 .f32 0x00000000#32) (ix2 p c)
      = ∑ k : Fin 64, l (ix2 p k) * r (ix2 k c) := by
  rw [Ideal.matmul_constant_zero_apply, ← Equiv.sum_comp (contrEquiv1 dot_S20000x64_S64x64_S20000x64_1_0_0_1_n_n 64 rfl rfl).symm]
  refine Finset.sum_congr rfl fun k _ => ?_
  have hk := contrEquiv1_symm_val dot_S20000x64_S64x64_S20000x64_1_0_0_1_n_n 64 rfl rfl k
  have el : dot_S20000x64_S64x64_S20000x64_1_0_0_1_n_n.lhsIdx (ix2 p c) ((contrEquiv1 dot_S20000x64_S64x64_S20000x64_1_0_0_1_n_n 64 rfl rfl).symm k) = ix2 p k := funext fun a => Fin.ext (by
    match a with
    | ⟨0, _⟩ => exact lhsA_0 _ _
    | ⟨1, _⟩ => exact (lhsA_1 _ _).trans hk)
  have er : dot_S20000x64_S64x64_S20000x64_1_0_0_1_n_n.rhsIdx (ix2 p c) ((contrEquiv1 dot_S20000x64_S64x64_S20000x64_1_0_0_1_n_n 64 rfl rfl).symm k) = ix2 k c := funext fun a => Fin.ext (by
    match a with
    | ⟨0, _⟩ => exact (rhsA_0 _ _).trans hk
    | ⟨1, _⟩ => exact rhsA_1 _ _)
  rw [el, er]

-- the second product, [20000, 64] × [64, 1]
theorem lhsB_0 (i : S20000x1.Idx) (q : dot_S20000x64_S64x1_S20000x1_1_0_0_1_n_n.contr.Idx) :
    (dot_S20000x64_S64x1_S20000x1_1_0_0_1_n_n.lhsIdx i q 0).val = (i 0).val := by
  unfold DotDims.lhsIdx
  rw [dif_neg (show ¬(0 : Fin S20000x64.rank) ∈ dot_S20000x64_S64x1_S20000x1_1_0_0_1_n_n.lhsBatch by decide), dif_pos (show (0 : Fin S20000x64.rank) ∈ dot_S20000x64_S64x1_S20000x1_1_0_0_1_n_n.lhsNonContracting by decide)]
  rfl
theorem lhsB_1 (i : S20000x1.Idx) (q : dot_S20000x64_S64x1_S20000x1_1_0_0_1_n_n.contr.Idx) :
    (dot_S20000x64_S64x1_S20000x1_1_0_0_1_n_n.lhsIdx i q 1).val = (q ⟨0, by decide⟩).val :=
  dot_S20000x64_S64x1_S20000x1_1_0_0_1_n_n.lhsIdx_val_of_single rfl i q
theorem rhsB_0 (i : S20000x1.Idx) (q : dot_S20000x64_S64x1_S20000x1_1_0_0_1_n_n.contr.Idx) :
    (dot_S20000x64_S64x1_S20000x1_1_0_0_1_n_n.rhsIdx i q 0).val = (q ⟨0, by decide⟩).val :=
  dot_S20000x64_S64x1_S20000x1_1_0_0_1_n_n.rhsIdx_val_of_single rfl i q
theorem rhsB_1 (i : S20000x1.Idx) (q : dot_S20000x64_S64x1_S20000x1_1_0_0_1_n_n.contr.Idx) :
    (dot_S20000x64_S64x1_S20000x1_1_0_0_1_n_n.rhsIdx i q 1).val = (i 1).val := by
  unfold DotDims.rhsIdx
  rw [dif_neg (show ¬(1 : Fin S64x1.rank) ∈ dot_S20000x64_S64x1_S20000x1_1_0_0_1_n_n.rhsBatch by decide), dif_pos (show (1 : Fin S64x1.rank) ∈ dot_S20000x64_S64x1_S20000x1_1_0_0_1_n_n.rhsNonContracting by decide)]
  rfl

/-- Entry (r, 0) of the second product into a zero accumulator: ∑ₖ l[r, k] · r[k, 0]. -/
theorem mmB_apply {φ₁ φ₂ : FTy} (l : FVec Ideal S20000x64 φ₁) (r : FVec Ideal S64x1 φ₂) (p : Fin 20000) (u : Fin 1) :
    FloatOps.matmul dot_S20000x64_S64x1_S20000x1_1_0_0_1_n_n none l r (constant S20000x1 .f32 0x00000000#32) (ix2 p u)
      = ∑ k : Fin 64, l (ix2 p k) * r (ix2 k u) := by
  rw [Ideal.matmul_constant_zero_apply, ← Equiv.sum_comp (contrEquiv1 dot_S20000x64_S64x1_S20000x1_1_0_0_1_n_n 64 rfl rfl).symm]
  refine Finset.sum_congr rfl fun k _ => ?_
  have hk := contrEquiv1_symm_val dot_S20000x64_S64x1_S20000x1_1_0_0_1_n_n 64 rfl rfl k
  have el : dot_S20000x64_S64x1_S20000x1_1_0_0_1_n_n.lhsIdx (ix2 p u) ((contrEquiv1 dot_S20000x64_S64x1_S20000x1_1_0_0_1_n_n 64 rfl rfl).symm k) = ix2 p k := funext fun a => Fin.ext (by
    match a with
    | ⟨0, _⟩ => exact lhsB_0 _ _
    | ⟨1, _⟩ => exact (lhsB_1 _ _).trans hk)
  have er : dot_S20000x64_S64x1_S20000x1_1_0_0_1_n_n.rhsIdx (ix2 p u) ((contrEquiv1 dot_S20000x64_S64x1_S20000x1_1_0_0_1_n_n 64 rfl rfl).symm k) = ix2 k u := funext fun a => Fin.ext (by
    match a with
    | ⟨0, _⟩ => exact (rhsB_0 _ _).trans hk
    | ⟨1, _⟩ => exact rhsB_1 _ _)
  rw [el, er]

/-- The body's one stored value at (p, 0): the block's row p projected twice, plus the one bias entry. Format changes
    are the identity on the extended reals, and a product into a zero accumulator is the plain sum. -/
theorem pay_apply (x0 : Vec Ideal S20000x64 .f32) (x1 : Vec Ideal S64x64 .f32) (x2 : Vec Ideal S64x1 .f32) (x3 : Vec Ideal S1x1 .f32)
    (p : Fin 20000) (u : Fin 1) :
    k0_pay1 (F := Ideal) x0 x1 x2 x3 (ix2 p u)
      = (∑ k : Fin 64, (∑ q : Fin 64, x0 (ix2 p q) * x1 (ix2 q k)) * x2 (ix2 k (0 : Fin 1))) + x3 (ix2 (0 : Fin 1) (0 : Fin 1)) := by
  have hu : u = 0 := Fin.ext (by omega)
  subst hu
  unfold k0_pay1
  try dsimp only
  rw [addf_apply]
  refine congrArg₂ (· + ·) ?_ ?_
  · refine (mmB_apply _ _ p 0).trans ?_
    refine Finset.sum_congr rfl fun k _ => ?_
    refine congrArg₂ (· * ·) ?_ rfl
    exact mmA_apply _ _ p k
  · rw [shapeCast_self]
    exact broadcastTo_apply x3 _ (ix2 p (0 : Fin 1)) (ix2 (0 : Fin 1) (0 : Fin 1)) (fun a => match a with
      | ⟨0, _⟩ => by show 0 = if (1 : Nat) = 1 then 0 else p.val; rw [if_pos rfl]
      | ⟨1, _⟩ => by show 0 = if (1 : Nat) = 1 then 0 else (0 : Fin 1).val; rw [if_pos rfl])

/-- The same at any index of the block. -/
theorem pay_apply' (x0 : Vec Ideal S20000x64 .f32) (x1 : Vec Ideal S64x64 .f32) (x2 : Vec Ideal S64x1 .f32) (x3 : Vec Ideal S1x1 .f32)
    (j : S20000x1.Idx) :
    k0_pay1 (F := Ideal) x0 x1 x2 x3 j
      = (∑ k : Fin 64, (∑ q : Fin 64, x0 (ix2 (⟨(j 0).val, (j 0).isLt⟩ : Fin 20000) q) * x1 (ix2 q k)) * x2 (ix2 k (0 : Fin 1))) + x3 (ix2 (0 : Fin 1) (0 : Fin 1)) := by
  have e : j = ix2 (⟨(j 0).val, (j 0).isLt⟩ : Fin 20000) (⟨(j 1).val, (j 1).isLt⟩ : Fin 1) :=
    funext fun a => by match a with | ⟨0, _⟩ => rfl | ⟨1, _⟩ => rfl
  exact (congrArg (k0_pay1 (F := Ideal) x0 x1 x2 x3) e).trans (pay_apply x0 x1 x2 x3 _ _)

/-- The printed index maps over the fifty grid points: the edge-feature window moves with the output window along the
    rows; the two weights and the bias stay at block (0, 0); the output's row block index is the point's number. -/
theorem idx_facts : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 49 :=
  (by decide +kernel : ∀ t : Fin grid0.N, _)

/-- Every row block is some point's. -/
theorem idx_onto : ∀ q : Fin 50, ∃ t : Fin cfg0.N, win0_4.index t (0 : Fin 2) = q.val :=
  (by decide +kernel : ∀ q : Fin 50, ∃ t : Fin grid0.N, win0_4.index t (0 : Fin 2) = q.val)

section
variable (V : (c : Dev nD) → (b : Ref sig .tc) → Buf (Elt Ideal) ((c : Thread nD τ).loc b))

/-- The region's four input arrays as it finds them, at their literal types. -/
abbrev efArr (c : Dev nD) : FVec Ideal S1000000x64 .f32 := V c main_arg5
abbrev fArr (c : Dev nD) : FVec Ideal S64x64 .f32 := V c main_arg2
abbrev pwArr (c : Dev nD) : FVec Ideal S64x1 .f32 := V c main_arg3
abbrev pbArr (c : Dev nD) : FVec Ideal S1x1 .f32 := V c main_v4

/-- What point `t` writes back is block `t` of the edge weights of the region's arrays. -/
theorem flushed_eq (c : Dev nD) (t : Fin cfg0.N) :
    (dat0 V c).flushed 4 t = ((cfg0.win 4).blk t).view.read (Elt Ideal)
      (edgeWeight (efArr V c) (fArr V c) (pwArr V c) (pbArr V c (ix2 (0 : Fin 1) (0 : Fin 1)))) := by
  show (cfg0.win 4).cut (grid0.coords t) ((dat0 V c).after 4 t) = _
  rw [after0_4]
  unfold out0_4
  rw [View.canon_unit_zero hz2]
  simp only [View.ld_unit_zero (S := S20000x64) hz2, View.ld_unit_zero (S := S64x64) hz2, View.ld_unit_zero (S := S64x1) hz2,
    View.ld_unit_zero (S := S1x1) hz2]
  obtain ⟨e0, e1, e2, e3, e4, e5, e6, e7, e8, e9⟩ := idx_facts t
  funext j
  show k0_pay1 (F := Ideal) (iblk0 V c 0 t) (iblk0 V c 1 t) (iblk0 V c 2 t) (iblk0 V c 3 t) j
    = edgeWeight (efArr V c) (fArr V c) (pwArr V c) (pbArr V c (ix2 (0 : Fin 1) (0 : Fin 1))) (((cfg0.win 4).blk t).view.emb j)
  refine (pay_apply' (iblk0 V c 0 t) (iblk0 V c 1 t) (iblk0 V c 2 t) (iblk0 V c 3 t) j).trans ?_
  unfold edgeWeight
  refine congrArg₂ (· + ·) (Finset.sum_congr rfl fun k _ => congrArg₂ (· * ·) (Finset.sum_congr rfl fun q _ => congrArg₂ (· * ·) ?_ ?_) ?_) ?_
  · show efArr V c (((cfg0.win 0).blk t).view.emb (ix2 (⟨(j 0).val, (j 0).isLt⟩ : Fin 20000) q)) = _
    refine congrArg (efArr V c) (funext fun a => Fin.ext ?_)
    match a with
    | ⟨0, _⟩ => show win0_0.index t (0 : Fin 2) * 20000 + 1 * (j 0).val = win0_4.index t (0 : Fin 2) * 20000 + 1 * (j 0).val; omega
    | ⟨1, _⟩ => show win0_0.index t (1 : Fin 2) * 64 + 1 * q.val = q.val; omega
  · show fArr V c (((cfg0.win 1).blk t).view.emb (ix2 q k)) = _
    refine congrArg (fArr V c) (funext fun a => Fin.ext ?_)
    match a with
    | ⟨0, _⟩ => show win0_1.index t (0 : Fin 2) * 64 + 1 * q.val = q.val; omega
    | ⟨1, _⟩ => show win0_1.index t (1 : Fin 2) * 64 + 1 * k.val = k.val; omega
  · show pwArr V c (((cfg0.win 2).blk t).view.emb (ix2 k (0 : Fin 1))) = _
    refine congrArg (pwArr V c) (funext fun a => Fin.ext ?_)
    match a with
    | ⟨0, _⟩ => show win0_2.index t (0 : Fin 2) * 64 + 1 * k.val = k.val; omega
    | ⟨1, _⟩ => show win0_2.index t (1 : Fin 2) * 1 + 1 * (0 : Fin 1).val = (0 : Fin 1).val; omega
  · show pbArr V c (((cfg0.win 3).blk t).view.emb (ix2 (0 : Fin 1) (0 : Fin 1))) = _
    refine congrArg (pbArr V c) (funext fun a => Fin.ext ?_)
    match a with
    | ⟨0, _⟩ => show win0_3.index t (0 : Fin 2) * 1 + 1 * (0 : Fin 1).val = (0 : Fin 1).val; omega
    | ⟨1, _⟩ => show win0_3.index t (1 : Fin 2) * 1 + 1 * (0 : Fin 1).val = (0 : Fin 1).val; omega

/-- An index of the edge-weight array is in point `t`'s block iff each coordinate is in the block's range on its axis. -/
theorem mem_blk (t : Fin cfg0.N) (i : S1000000x1.Idx) :
    i ∈ ((cfg0.win 4).blk t).view.set ↔ ∀ a : Fin 2, win0_4.index t a * S20000x1.size a ≤ (i a).val ∧ (i a).val < win0_4.index t a * S20000x1.size a + S20000x1.size a := by
  show i ∈ ((View.whole main_v5).slice (win0_4.rect t)).set ↔ _
  rw [View.set_slice_whole, Rect.mem_set_unit]
  exact Iff.rfl

/-- The fifty blocks of 20000 rows tile the edge-weight array. -/
theorem cover (i : S1000000x1.Idx) : ∃ t : Fin cfg0.N, (cfg0.win 4).flush t = true ∧ i ∈ ((cfg0.win 4).blk t).view.set := by
  have hi0 : (i 0).val < 1000000 := (i 0).isLt
  have hi1 : (i 1).val < 1 := (i 1).isLt
  obtain ⟨t, ht⟩ := idx_onto ⟨(i 0).val / 20000, by omega⟩
  have q0 : win0_4.index t (0 : Fin 2) = (i 0).val / 20000 := ht
  obtain ⟨e0, e1, e2, e3, e4, e5, e6, e7, e8, e9⟩ := idx_facts t
  refine ⟨t, flush0_4 t, ?_⟩
  rw [mem_blk]
  intro a
  match a with
  | ⟨0, _⟩ => show win0_4.index t (0 : Fin 2) * 20000 ≤ (i 0).val ∧ (i 0).val < win0_4.index t (0 : Fin 2) * 20000 + 20000; omega
  | ⟨1, _⟩ => show win0_4.index t (1 : Fin 2) * 1 ≤ (i 1).val ∧ (i 1).val < win0_4.index t (1 : Fin 2) * 1 + 1; omega

/-- The edge-weight array after the region: one function of the region's arrays. -/
theorem final (c : Dev nD) : (dat0 V c).arrAt 4 cfg0.N
    = edgeWeight (efArr V c) (fArr V c) (pwArr V c) (pbArr V c (ix2 (0 : Fin 1) (0 : Fin 1))) :=
  (dat0 V c).arrAt_eq_of_cover 4 _ (fun t _ => flushed_eq V c t) cover

end

end Cert.EdgeRegion

end
-- ==== Proof.HostChain.lean ====
/-
  The host operations between the two regions of the idealized kernel, matched with the reference's.

  Between the edge-weight region and the scoring region the kernel's program runs the same host operations as the
  reference does on its own edge weights: the degree count by a scatter-add of ones, its reciprocal square root where
  positive, the edge coefficients, the joined embedding table, three rounds of gather, scale and scatter-add with their
  weighted sum, and the two final row gathers. Both programs apply the SAME functions in the SAME order; only the
  buffers' names differ. So each value the kernel's program holds at a cut is the reference's value of the matching
  operation, provided the values going in agree: the doubled edge weights, the two index rows, the embedding arguments
  and the scored index arguments. Nothing here opens a gather or a scatter-add.
-/
import proofs.«130227_j64604898066610_1_alg».proof.Proof.Gen.KernelIdeal.Frame
import proofs.«130227_j64604898066610_1_alg».proof.Proof.RefRead
import Idealize.ShloMosaic.Lib.StableHlo.Run

set_option maxRecDepth 16384

noncomputable section

namespace Cert.HostChain

open Idealize.ShloMosaic Idealize.ShloMosaic.TcCoe Idealize.SL.Sem Idealize.ShloMosaic.StableHlo
open Cert.KernelIdeal Cert.KernelIdeal.Gen

variable {F : FTy → Type} [FloatOps F]

/-! ## The host operations between the two regions, cut where the two programs' values meet

The first two operations flatten the edge weights and join them with themselves; the next stretch builds the degree
normalisation, the edge coefficients and the joined embedding table; the long middle stretch propagates three times;
the last gathers the scored rows. -/

abbrev opsHead : List (HloOp τ sig (Elt F)) := (hostOps1 (F := F)).take 2
abbrev opsPre : List (HloOp τ sig (Elt F)) := (hostOps1 (F := F)).drop 2
abbrev opsA : List (HloOp τ sig (Elt F)) := (hostOps1_2 (F := F)).take 22
abbrev opsB : List (HloOp τ sig (Elt F)) := ((hostOps1_2 (F := F)).drop 22).take 60
abbrev opsC : List (HloOp τ sig (Elt F)) := ((hostOps1_2 (F := F)).drop 22).drop 60

/-- Running the three stretches is running the six pieces in order. -/
theorem split (V : Valuation τ sig (Elt F)) :
    StableHlo.after (hostOps1_2 (F := F)) (StableHlo.after hostOps1_1 (StableHlo.after hostOps1 V))
      = StableHlo.after opsC (StableHlo.after opsB (StableHlo.after opsA (StableHlo.after hostOps1_1 (StableHlo.after opsPre (StableHlo.after opsHead V))))) := by
  rw [← StableHlo.after_append opsHead opsPre, ← StableHlo.after_append opsB opsC, ← StableHlo.after_append opsA]
  unfold opsHead opsPre opsA opsB opsC
  rw [List.take_append_drop, List.take_append_drop, List.take_append_drop]

section Stages
variable (a0 : (⟨S100000x64, .f32⟩ : BufTy).Contents (Elt F)) (a1 : (⟨S50000x64, .f32⟩ : BufTy).Contents (Elt F))
  (a2 : (⟨S64x64, .f32⟩ : BufTy).Contents (Elt F)) (a3 : (⟨S64x1, .f32⟩ : BufTy).Contents (Elt F))
  (a4 : (⟨S1, .f32⟩ : BufTy).Contents (Elt F)) (a5 : (⟨S1000000x64, .f32⟩ : BufTy).Contents (Elt F))
  (a6 : (⟨S2x2000000, .i32⟩ : BufTy).Contents (Elt F)) (a7 a8 : (⟨S16384, .i32⟩ : BufTy).Contents (Elt F))

set_option maxHeartbeats 20000000 in
/-- The edge coefficients: from the doubled edge weights and the two index rows, the same operations as the reference's. -/
theorem stageA_coef (Vin : Valuation τ sig (Elt F))
    (h7 : Vin (Proc.devRef .tc main_v7) = Cert.ReferenceIdeal.ReadP.val_main_v10 (F := F) a2 a3 a4 a5)
    (h1 : Vin (Proc.devRef .tc main_v1) = Cert.ReferenceIdeal.ReadP.val_main_v1 (F := F) a6)
    (h3 : Vin (Proc.devRef .tc main_v3) = Cert.ReferenceIdeal.ReadP.val_main_v3 (F := F) a6) :
    StableHlo.after opsA (StableHlo.after hostOps1_1 (StableHlo.after opsPre Vin)) (Proc.devRef .tc main_v34)
      = Cert.ReferenceIdeal.ReadP.val_main_v37 (F := F) a2 a3 a4 a5 a6 := by
  simp only [opsA, opsPre, hostOps1_2, hostOps1_1, hostOps1, List.drop_succ_cons, List.drop_zero, List.take_succ_cons, List.take_zero]
  after_results_simp
  rw [h7, h1, h3]
  try simp only [TRef.ofBuf, TRef.toBuf, cast_eq]
  rfl

set_option maxHeartbeats 20000000 in
/-- The joined embedding table. -/
theorem stageA_x0 (Vin : Valuation τ sig (Elt F))
    (h0 : Vin (Proc.devRef .tc main_arg0) = a0) (h1 : Vin (Proc.devRef .tc main_arg1) = a1) :
    StableHlo.after opsA (StableHlo.after hostOps1_1 (StableHlo.after opsPre Vin)) (Proc.devRef .tc main_v35)
      = Cert.ReferenceIdeal.ReadP.val_main_v38 (F := F) a0 a1 := by
  simp only [opsA, opsPre, hostOps1_2, hostOps1_1, hostOps1, List.drop_succ_cons, List.drop_zero, List.take_succ_cons, List.take_zero]
  after_results
  rw [h0, h1]
  rfl

set_option maxHeartbeats 20000000 in
/-- The first stretches write none of the index rows and none of the two scored index arguments. -/
theorem stageA_keep (Vin : Valuation τ sig (Elt F)) :
    StableHlo.after opsA (StableHlo.after hostOps1_1 (StableHlo.after opsPre Vin)) (Proc.devRef .tc main_v1) = Vin (Proc.devRef .tc main_v1)
    ∧ StableHlo.after opsA (StableHlo.after hostOps1_1 (StableHlo.after opsPre Vin)) (Proc.devRef .tc main_v3) = Vin (Proc.devRef .tc main_v3)
    ∧ StableHlo.after opsA (StableHlo.after hostOps1_1 (StableHlo.after opsPre Vin)) (Proc.devRef .tc main_arg7) = Vin (Proc.devRef .tc main_arg7)
    ∧ StableHlo.after opsA (StableHlo.after hostOps1_1 (StableHlo.after opsPre Vin)) (Proc.devRef .tc main_arg8) = Vin (Proc.devRef .tc main_arg8) := by
  simp only [opsA, opsPre, hostOps1_2, hostOps1_1, hostOps1, List.drop_succ_cons, List.drop_zero, List.take_succ_cons, List.take_zero]
  refine ⟨?_, ?_, ?_, ?_⟩ <;> after_results_simp

set_option maxHeartbeats 40000000 in
/-- The three propagation layers and their weighted sum. -/
theorem stageB (VB : Valuation τ sig (Elt F))
    (h34 : VB (Proc.devRef .tc main_v34) = Cert.ReferenceIdeal.ReadP.val_main_v37 (F := F) a2 a3 a4 a5 a6)
    (h35 : VB (Proc.devRef .tc main_v35) = Cert.ReferenceIdeal.ReadP.val_main_v38 (F := F) a0 a1)
    (h1 : VB (Proc.devRef .tc main_v1) = Cert.ReferenceIdeal.ReadP.val_main_v1 (F := F) a6)
    (h3 : VB (Proc.devRef .tc main_v3) = Cert.ReferenceIdeal.ReadP.val_main_v3 (F := F) a6) :
    StableHlo.after opsB VB (Proc.devRef .tc main_v82) = Cert.ReferenceIdeal.ReadP.val_main_v85 (F := F) a0 a1 a2 a3 a4 a5 a6 := by
  simp only [opsB, hostOps1_2, List.drop_succ_cons, List.drop_zero, List.take_succ_cons, List.take_zero]
  after_results_simp
  rw [h34, h35, h1, h3]
  rfl

set_option maxHeartbeats 20000000 in
/-- The middle stretch writes neither scored index argument. -/
theorem stageB_keep (VB : Valuation τ sig (Elt F)) :
    StableHlo.after opsB VB (Proc.devRef .tc main_arg7) = VB (Proc.devRef .tc main_arg7)
    ∧ StableHlo.after opsB VB (Proc.devRef .tc main_arg8) = VB (Proc.devRef .tc main_arg8) := by
  simp only [opsB, hostOps1_2, List.drop_succ_cons, List.drop_zero, List.take_succ_cons, List.take_zero]
  refine ⟨?_, ?_⟩ <;> after_results_simp

set_option maxHeartbeats 20000000 in
/-- The user rows gathered from the first 100000 rows of the propagated table. -/
theorem stageC_gu (VC : Valuation τ sig (Elt F))
    (h82 : VC (Proc.devRef .tc main_v82) = Cert.ReferenceIdeal.ReadP.val_main_v85 (F := F) a0 a1 a2 a3 a4 a5 a6)
    (h7 : VC (Proc.devRef .tc main_arg7) = a7) :
    StableHlo.after opsC VC (Proc.devRef .tc main_v91) = Cert.ReferenceIdeal.ReadP.val_main_v94 (F := F) a0 a1 a2 a3 a4 a5 a6 a7 := by
  simp only [opsC, hostOps1_2, List.drop_succ_cons, List.drop_zero]
  after_results_simp
  rw [h82, h7]
  rfl

set_option maxHeartbeats 20000000 in
/-- The item rows gathered from the last 50000 rows of the propagated table. -/
theorem stageC_gi (VC : Valuation τ sig (Elt F))
    (h82 : VC (Proc.devRef .tc main_v82) = Cert.ReferenceIdeal.ReadP.val_main_v85 (F := F) a0 a1 a2 a3 a4 a5 a6)
    (h8 : VC (Proc.devRef .tc main_arg8) = a8) :
    StableHlo.after opsC VC (Proc.devRef .tc main_v98) = Cert.ReferenceIdeal.ReadP.val_main_v101 (F := F) a0 a1 a2 a3 a4 a5 a6 a8 := by
  simp only [opsC, hostOps1_2, List.drop_succ_cons, List.drop_zero]
  after_results_simp
  rw [h82, h8]
  rfl

end Stages

end Cert.HostChain

end
-- ==== Proof.RefSide.lean ====
/-
  The reference program read at an index, in the certificate's two closed forms.

  * Its edge weights (the two host matrix products and the broadcast bias): `Spec.edgeWeight` of the arguments.
  * Its result (a host sum over the 64 columns of the entrywise product of the two gathered arrays, from a zero initial
    value): `Spec.score` of the two gathered arrays.
  * A pair of equal [n, 1] columns joined along the rows and then flattened is the same [2n] array as the flattened
    column joined with itself: the two programs build the doubled edge weights in these two orders.
-/
import proofs.«130227_j64604898066610_1_alg».proof.Proof.RefRead
import proofs.«130227_j64604898066610_1_alg».proof.Proof.Spec
import Idealize.ShloMosaic.Lib.Pipeline.Value
import Idealize.ShloMosaic.Lib.ValueIdx
import Idealize.ShloMosaic.PureOps.Ideal.Laws

noncomputable section

open scoped BigOperators

namespace Cert.RefSide

open Idealize.ShloMosaic Idealize.ShloMosaic.ValueIdx
open Cert.ReferenceIdeal Cert.ReferenceIdeal.ReadP Cert.Spec

/-- The reference's edge weights are `edgeWeight` of its arguments: each host product is the plain sum over the shared
    coordinate, and the bias, broadcast twice, is the argument's one entry. -/
theorem ref_edgeWeight (x2 : (⟨S64x64, .f32⟩ : BufTy).Contents (Elt Ideal)) (x3 : (⟨S64x1, .f32⟩ : BufTy).Contents (Elt Ideal))
    (x4 : (⟨S1, .f32⟩ : BufTy).Contents (Elt Ideal)) (x5 : (⟨S1000000x64, .f32⟩ : BufTy).Contents (Elt Ideal)) :
    val_main_v8 (F := Ideal) x2 x3 x4 x5 = edgeWeight x5 x2 x3 (x4 (ix1 (0 : Fin 1))) := by
  funext i
  rw [val_main_v8_apply]
  show val_main_v5 (F := Ideal) x2 x3 x5 i + val_main_v7 (F := Ideal) x4 i = _
  unfold edgeWeight
  refine congrArg₂ (· + ·) ?_ ?_
  · rw [val_main_v5_apply]
    refine Finset.sum_congr rfl fun k _ => ?_
    rw [val_main_v4_apply]
    refine congrArg₂ (· * ·) (Finset.sum_congr rfl fun q _ => congrArg₂ (· * ·) (congrArg x5 ?_) (congrArg x2 ?_)) (congrArg x3 ?_)
    · exact funext fun a => by match a with | ⟨0, _⟩ => rfl | ⟨1, _⟩ => rfl
    · exact funext fun a => by match a with | ⟨0, _⟩ => rfl | ⟨1, _⟩ => rfl
    · exact funext fun a => Fin.ext (by
        match a with
        | ⟨0, _⟩ => rfl
        | ⟨1, _⟩ => show (i 1).val = 0; have h1 : (i 1).val < 1 := (i 1).isLt; omega)
  · rw [val_main_v7_apply, val_main_v6_apply]
    exact congrArg x4 (funext fun a => by match a with | ⟨0, _⟩ => rfl)

/-- The reference's result is `score` of its two gathered arrays: the host's sum over the columns from the zero word. -/
theorem ref_score (x0 : (⟨S100000x64, .f32⟩ : BufTy).Contents (Elt Ideal)) (x1 : (⟨S50000x64, .f32⟩ : BufTy).Contents (Elt Ideal))
    (x2 : (⟨S64x64, .f32⟩ : BufTy).Contents (Elt Ideal)) (x3 : (⟨S64x1, .f32⟩ : BufTy).Contents (Elt Ideal))
    (x4 : (⟨S1, .f32⟩ : BufTy).Contents (Elt Ideal)) (x5 : (⟨S1000000x64, .f32⟩ : BufTy).Contents (Elt Ideal))
    (x6 : (⟨S2x2000000, .i32⟩ : BufTy).Contents (Elt Ideal)) (x7 x8 : (⟨S16384, .i32⟩ : BufTy).Contents (Elt Ideal)) :
    val_main_v103 (F := Ideal) x0 x1 x2 x3 x4 x5 x6 x7 x8
      = score (val_main_v94 (F := Ideal) x0 x1 x2 x3 x4 x5 x6 x7) (val_main_v101 (F := Ideal) x0 x1 x2 x3 x4 x5 x6 x8) := by
  funext i
  rw [val_main_v103_apply]
  show Ideal.ofBits .f32 0x00000000#32 + _ = _
  rw [Ideal.ofBits_zero_f32, zero_add]
  unfold score
  refine Finset.sum_congr rfl fun k _ => ?_
  rw [val_main_v102_apply]
  have e : idx_main_v103 i k = ix2 (⟨(i 0).val, (i 0).isLt⟩ : Fin 16384) k :=
    funext fun a => by match a with | ⟨0, _⟩ => rfl | ⟨1, _⟩ => rfl
  rw [e]
  rfl

/-- Joining a flattened [1000000, 1] column with itself is flattening the column joined with itself along the rows. -/
theorem join_flatten {α : Type} (x : (⟨2, ![1000000, 1]⟩ : Shape).Idx → α)
    (h1 : (⟨2, ![1000000, 1]⟩ : Shape).ShapeCasts (⟨1, ![1000000]⟩ : Shape)) (hc : Shape.Concatenates [(⟨1, ![1000000]⟩ : Shape), (⟨1, ![1000000]⟩ : Shape)] (⟨1, ![2000000]⟩ : Shape) 0)
    (hc' : Shape.Concatenates [(⟨2, ![1000000, 1]⟩ : Shape), (⟨2, ![1000000, 1]⟩ : Shape)] (⟨2, ![2000000, 1]⟩ : Shape) 0) (h2 : (⟨2, ![2000000, 1]⟩ : Shape).ShapeCasts (⟨1, ![2000000]⟩ : Shape)) :
    concatenate (⟨1, ![2000000]⟩ : Shape) 0 [⟨(⟨1, ![1000000]⟩ : Shape), shapeCast (⟨1, ![1000000]⟩ : Shape) x h1⟩, ⟨(⟨1, ![1000000]⟩ : Shape), shapeCast (⟨1, ![1000000]⟩ : Shape) x h1⟩] hc
      = shapeCast (⟨1, ![2000000]⟩ : Shape) (concatenate (⟨2, ![2000000, 1]⟩ : Shape) 0 [⟨(⟨2, ![1000000, 1]⟩ : Shape), x⟩, ⟨(⟨2, ![1000000, 1]⟩ : Shape), x⟩] hc') h2 := by
  funext i
  have hi : (i 0).val < 2000000 := (i 0).isLt
  -- the flattened index (n) comes from the column index (n, 0)
  have hR : shapeCast (⟨1, ![2000000]⟩ : Shape) (concatenate (⟨2, ![2000000, 1]⟩ : Shape) 0 [⟨(⟨2, ![1000000, 1]⟩ : Shape), x⟩, ⟨(⟨2, ![1000000, 1]⟩ : Shape), x⟩] hc') h2 i
      = concatenate (⟨2, ![2000000, 1]⟩ : Shape) 0 [⟨(⟨2, ![1000000, 1]⟩ : Shape), x⟩, ⟨(⟨2, ![1000000, 1]⟩ : Shape), x⟩] hc' (ix2 (⟨(i 0).val, hi⟩ : Fin 2000000) (0 : Fin 1)) :=
    shapeCast_apply _ h2 i _ (by
      rewrite [Shape.rowMajor_val_two, Shape.rowMajor_val_one]
      show (i 0).val * 1 + 0 = (i 0).val; omega)
  rw [hR]
  by_cases hlt : (i 0).val < 1000000
  · -- first piece on both sides
    have hL := concatenate_pair_apply_left (t := (⟨1, ![2000000]⟩ : Shape)) (s₁ := (⟨1, ![1000000]⟩ : Shape)) (s₂ := (⟨1, ![1000000]⟩ : Shape)) 0
      (shapeCast (⟨1, ![1000000]⟩ : Shape) x h1) (shapeCast (⟨1, ![1000000]⟩ : Shape) x h1) hc i rfl (ix1 (⟨(i 0).val, hlt⟩ : Fin 1000000))
      (fun b => by match b with | ⟨0, _⟩ => rfl)
    have hR' := concatenate_pair_apply_left (t := (⟨2, ![2000000, 1]⟩ : Shape)) (s₁ := (⟨2, ![1000000, 1]⟩ : Shape)) (s₂ := (⟨2, ![1000000, 1]⟩ : Shape)) 0 x x hc'
      (ix2 (⟨(i 0).val, hi⟩ : Fin 2000000) (0 : Fin 1)) rfl (ix2 (⟨(i 0).val, hlt⟩ : Fin 1000000) (0 : Fin 1))
      (fun b => by match b with | ⟨0, _⟩ => rfl | ⟨1, _⟩ => rfl)
    rw [hL, hR']
    exact shapeCast_apply x h1 _ _ (by
      rewrite [Shape.rowMajor_val_two, Shape.rowMajor_val_one]
      show (i 0).val * 1 + 0 = (i 0).val; omega)
  · -- second piece on both sides
    have hge : 1000000 ≤ (i 0).val := Nat.le_of_not_lt hlt
    have hsub : (i 0).val - 1000000 < 1000000 := by omega
    have hL := concatenate_pair_apply_right (t := (⟨1, ![2000000]⟩ : Shape)) (s₁ := (⟨1, ![1000000]⟩ : Shape)) (s₂ := (⟨1, ![1000000]⟩ : Shape)) 0
      (shapeCast (⟨1, ![1000000]⟩ : Shape) x h1) (shapeCast (⟨1, ![1000000]⟩ : Shape) x h1) hc i rfl rfl (ix1 (⟨(i 0).val - 1000000, hsub⟩ : Fin 1000000))
      (fun b hb => absurd (Fin.ext (by have hb1 : b.val < 1 := b.isLt; show b.val = 0; omega)) hb)
      (by show (i 0).val - 1000000 + 1000000 = (i 0).val; omega)
    have hR' := concatenate_pair_apply_right (t := (⟨2, ![2000000, 1]⟩ : Shape)) (s₁ := (⟨2, ![1000000, 1]⟩ : Shape)) (s₂ := (⟨2, ![1000000, 1]⟩ : Shape)) 0 x x hc'
      (ix2 (⟨(i 0).val, hi⟩ : Fin 2000000) (0 : Fin 1)) rfl rfl (ix2 (⟨(i 0).val - 1000000, hsub⟩ : Fin 1000000) (0 : Fin 1))
      (fun b hb => by
        have hb2 : b.val < 2 := b.isLt
        by_cases h0 : b.val = 0
        · exact absurd (Fin.ext (by show b.val = 0; exact h0)) hb
        · have h1 : b = ⟨1, by decide⟩ := Fin.ext (by show b.val = 1; omega)
          subst h1; rfl)
      (by show (i 0).val - 1000000 + 1000000 = (i 0).val; omega)
    rw [hL, hR']
    exact shapeCast_apply x h1 _ _ (by
      rewrite [Shape.rowMajor_val_two, Shape.rowMajor_val_one]
      show ((i 0).val - 1000000) * 1 + 0 = (i 0).val - 1000000; omega)

end Cert.RefSide

end
-- ==== Proof.KValue.lean ====
/-
  The idealized kernel's result as a function of its arguments: the reference's own stage function of the same arguments.

  The result array ends at what the scoring region leaves: the row-wise dot product of the two gathered arrays the region
  finds (`ScoreRegion.final`). Those are the host operations' values from the edge weights the first region leaves
  (`EdgeRegion.final`), which are the reference's edge weights of the same arguments (`RefSide.ref_edgeWeight`), doubled in
  the other order (`RefSide.join_flatten`); from there the two programs run the same operations (`HostChain`), and the
  reference's result is the same row-wise dot product (`RefSide.ref_score`).
-/
import proofs.«130227_j64604898066610_1_alg».proof.Proof.KRun
import proofs.«130227_j64604898066610_1_alg».proof.Proof.ScoreRegion
import proofs.«130227_j64604898066610_1_alg».proof.Proof.EdgeRegion
import proofs.«130227_j64604898066610_1_alg».proof.Proof.HostChain
import proofs.«130227_j64604898066610_1_alg».proof.Proof.RefSide

set_option maxRecDepth 16384

noncomputable section

namespace Cert.KValue

open Idealize.ShloMosaic Idealize.ShloMosaic.TcCoe Idealize.ShloMosaic.ValueIdx Idealize.SL.Sem Idealize.ShloMosaic.StableHlo
open Cert.KernelIdeal Cert.KernelIdeal.Gen Cert.Spec Cert.HostChain

variable (m : (ℓ : Loc nD τ sig) → Buf (Elt Ideal) ℓ) (ρ : Dev nD → PrngReg)

/-! ## The arguments' launch contents, at their literal types -/
abbrev A0 (c : Dev nD) : (⟨S100000x64, .f32⟩ : BufTy).Contents (Elt Ideal) := m ((c : Thread nD τ).loc main_arg0)
abbrev A1 (c : Dev nD) : (⟨S50000x64, .f32⟩ : BufTy).Contents (Elt Ideal) := m ((c : Thread nD τ).loc main_arg1)
abbrev A2 (c : Dev nD) : (⟨S64x64, .f32⟩ : BufTy).Contents (Elt Ideal) := m ((c : Thread nD τ).loc main_arg2)
abbrev A3 (c : Dev nD) : (⟨S64x1, .f32⟩ : BufTy).Contents (Elt Ideal) := m ((c : Thread nD τ).loc main_arg3)
abbrev A4 (c : Dev nD) : (⟨S1, .f32⟩ : BufTy).Contents (Elt Ideal) := m ((c : Thread nD τ).loc main_arg4)
abbrev A5 (c : Dev nD) : (⟨S1000000x64, .f32⟩ : BufTy).Contents (Elt Ideal) := m ((c : Thread nD τ).loc main_arg5)
abbrev A6 (c : Dev nD) : (⟨S2x2000000, .i32⟩ : BufTy).Contents (Elt Ideal) := m ((c : Thread nD τ).loc main_arg6)
abbrev A7 (c : Dev nD) : (⟨S16384, .i32⟩ : BufTy).Contents (Elt Ideal) := m ((c : Thread nD τ).loc main_arg7)
abbrev A8 (c : Dev nD) : (⟨S16384, .i32⟩ : BufTy).Contents (Elt Ideal) := m ((c : Thread nD τ).loc main_arg8)

/-! ## What the first host stretch leaves (the two index rows, the bias as a [1, 1] array) and what it keeps -/

theorem W1_arg0 (c : Dev nD) : W1 m ρ c (Proc.devRef .tc main_arg0) = A0 m c := by
  show StableHlo.after hostOps0 (W0 m ρ c) (Proc.devRef .tc main_arg0) = _
  simp only [hostOps0]
  after_results <;> rfl
theorem W1_arg1 (c : Dev nD) : W1 m ρ c (Proc.devRef .tc main_arg1) = A1 m c := by
  show StableHlo.after hostOps0 (W0 m ρ c) (Proc.devRef .tc main_arg1) = _
  simp only [hostOps0]
  after_results <;> rfl
theorem W1_arg2 (c : Dev nD) : W1 m ρ c (Proc.devRef .tc main_arg2) = A2 m c := by
  show StableHlo.after hostOps0 (W0 m ρ c) (Proc.devRef .tc main_arg2) = _
  simp only [hostOps0]
  after_results <;> rfl
theorem W1_arg3 (c : Dev nD) : W1 m ρ c (Proc.devRef .tc main_arg3) = A3 m c := by
  show StableHlo.after hostOps0 (W0 m ρ c) (Proc.devRef .tc main_arg3) = _
  simp only [hostOps0]
  after_results <;> rfl
theorem W1_arg5 (c : Dev nD) : W1 m ρ c (Proc.devRef .tc main_arg5) = A5 m c := by
  show StableHlo.after hostOps0 (W0 m ρ c) (Proc.devRef .tc main_arg5) = _
  simp only [hostOps0]
  after_results <;> rfl
theorem W1_arg7 (c : Dev nD) : W1 m ρ c (Proc.devRef .tc main_arg7) = A7 m c := by
  show StableHlo.after hostOps0 (W0 m ρ c) (Proc.devRef .tc main_arg7) = _
  simp only [hostOps0]
  after_results <;> rfl
theorem W1_arg8 (c : Dev nD) : W1 m ρ c (Proc.devRef .tc main_arg8) = A8 m c := by
  show StableHlo.after hostOps0 (W0 m ρ c) (Proc.devRef .tc main_arg8) = _
  simp only [hostOps0]
  after_results <;> rfl

/-- The source row of the edge index, as the reference reads it. -/
theorem W1_v1 (c : Dev nD) : W1 m ρ c (Proc.devRef .tc main_v1) = Cert.ReferenceIdeal.ReadP.val_main_v1 (F := Ideal) (A6 m c) := by
  show StableHlo.after hostOps0 (W0 m ρ c) (Proc.devRef .tc main_v1) = _
  simp only [hostOps0]
  after_results <;> rfl
/-- The destination row of the edge index, as the reference reads it. -/
theorem W1_v3 (c : Dev nD) : W1 m ρ c (Proc.devRef .tc main_v3) = Cert.ReferenceIdeal.ReadP.val_main_v3 (F := Ideal) (A6 m c) := by
  show StableHlo.after hostOps0 (W0 m ρ c) (Proc.devRef .tc main_v3) = _
  simp only [hostOps0]
  after_results <;> rfl
/-- The bias recast as a [1, 1] array. -/
theorem W1_v4 (c : Dev nD) : W1 m ρ c (Proc.devRef .tc main_v4) = shapeCast S1x1 (A4 m c) shapeCasts_S1_S1x1 := by
  show StableHlo.after hostOps0 (W0 m ρ c) (Proc.devRef .tc main_v4) = _
  simp only [hostOps0]
  after_results <;> rfl

/-- Its one entry is the bias argument's one entry. -/
theorem bias_entry (c : Dev nD) :
    EdgeRegion.pbArr (V1 m ρ) c (ix2 (0 : Fin 1) (0 : Fin 1)) = A4 m c (ix1 (0 : Fin 1)) := by
  show W1 m ρ c (Proc.devRef .tc main_v4) (ix2 (0 : Fin 1) (0 : Fin 1)) = _
  rw [W1_v4]
  exact shapeCast_apply (A4 m c) shapeCasts_S1_S1x1 _ _ (by
    rewrite [Shape.rowMajor_val_two, Shape.rowMajor_val_one]; rfl)

/-! ## The edge weights the first region leaves are the reference's -/

/-- The first region's result array at its exit: the reference's edge weights of the same arguments. -/
theorem edge_weights (c : Dev nD) :
    W2 m ρ c (Proc.devRef .tc main_v5) = Cert.ReferenceIdeal.ReadP.val_main_v8 (F := Ideal) (A2 m c) (A3 m c) (A4 m c) (A5 m c) := by
  refine (W2_arr m ρ c 4).trans ?_
  rw [EdgeRegion.final (V1 m ρ) c, RefSide.ref_edgeWeight, bias_entry]
  show edgeWeight (W1 m ρ c (Proc.devRef .tc main_arg5)) (W1 m ρ c (Proc.devRef .tc main_arg2)) (W1 m ρ c (Proc.devRef .tc main_arg3)) _ = _
  rw [W1_arg5, W1_arg2, W1_arg3]

/-! ## The second host stretch's first two operations double the edge weights; what they keep -/

theorem head_v7 (V : Valuation τ sig (Elt Ideal)) :
    StableHlo.after opsHead V (Proc.devRef .tc main_v7)
      = concatenate S2000000 0 [⟨S1000000, shapeCast S1000000 (V (Proc.devRef .tc main_v5)) shapeCasts_S1000000x1_S1000000⟩,
          ⟨S1000000, shapeCast S1000000 (V (Proc.devRef .tc main_v5)) shapeCasts_S1000000x1_S1000000⟩] concatenates_S1000000_S1000000_S2000000_d0 := by
  simp only [opsHead, hostOps1, List.take_succ_cons, List.take_zero]
  after_results <;> rfl
theorem head_main_v1 (V : Valuation τ sig (Elt Ideal)) : StableHlo.after opsHead V (Proc.devRef .tc main_v1) = V (Proc.devRef .tc main_v1) := by
  simp only [opsHead, hostOps1, List.take_succ_cons, List.take_zero]
  after_results <;> rfl
theorem head_main_v3 (V : Valuation τ sig (Elt Ideal)) : StableHlo.after opsHead V (Proc.devRef .tc main_v3) = V (Proc.devRef .tc main_v3) := by
  simp only [opsHead, hostOps1, List.take_succ_cons, List.take_zero]
  after_results <;> rfl
theorem head_main_arg0 (V : Valuation τ sig (Elt Ideal)) : StableHlo.after opsHead V (Proc.devRef .tc main_arg0) = V (Proc.devRef .tc main_arg0) := by
  simp only [opsHead, hostOps1, List.take_succ_cons, List.take_zero]
  after_results <;> rfl
theorem head_main_arg1 (V : Valuation τ sig (Elt Ideal)) : StableHlo.after opsHead V (Proc.devRef .tc main_arg1) = V (Proc.devRef .tc main_arg1) := by
  simp only [opsHead, hostOps1, List.take_succ_cons, List.take_zero]
  after_results <;> rfl
theorem head_main_arg7 (V : Valuation τ sig (Elt Ideal)) : StableHlo.after opsHead V (Proc.devRef .tc main_arg7) = V (Proc.devRef .tc main_arg7) := by
  simp only [opsHead, hostOps1, List.take_succ_cons, List.take_zero]
  after_results <;> rfl
theorem head_main_arg8 (V : Valuation τ sig (Elt Ideal)) : StableHlo.after opsHead V (Proc.devRef .tc main_arg8) = V (Proc.devRef .tc main_arg8) := by
  simp only [opsHead, hostOps1, List.take_succ_cons, List.take_zero]
  after_results <;> rfl

/-- The doubled edge weights the kernel's program builds are the reference's. -/
theorem doubled_weights (c : Dev nD) :
    StableHlo.after opsHead (W2 m ρ c) (Proc.devRef .tc main_v7)
      = Cert.ReferenceIdeal.ReadP.val_main_v10 (F := Ideal) (A2 m c) (A3 m c) (A4 m c) (A5 m c) := by
  rw [head_v7, edge_weights]
  unfold Cert.ReferenceIdeal.ReadP.val_main_v10 Cert.ReferenceIdeal.ReadP.val_main_v9
  exact RefSide.join_flatten _ _ _ _ _

/-- What the six kept buffers hold when the long stretches start. -/
theorem start_v1 (c : Dev nD) : StableHlo.after opsHead (W2 m ρ c) (Proc.devRef .tc main_v1) = Cert.ReferenceIdeal.ReadP.val_main_v1 (F := Ideal) (A6 m c) := by
  rw [head_main_v1, W2_of_ne m ρ c main_v1 (by decide)]; exact W1_v1 m ρ c
theorem start_v3 (c : Dev nD) : StableHlo.after opsHead (W2 m ρ c) (Proc.devRef .tc main_v3) = Cert.ReferenceIdeal.ReadP.val_main_v3 (F := Ideal) (A6 m c) := by
  rw [head_main_v3, W2_of_ne m ρ c main_v3 (by decide)]; exact W1_v3 m ρ c
theorem start_arg0 (c : Dev nD) : StableHlo.after opsHead (W2 m ρ c) (Proc.devRef .tc main_arg0) = A0 m c := by
  rw [head_main_arg0, W2_of_ne m ρ c main_arg0 (by decide)]; exact W1_arg0 m ρ c
theorem start_arg1 (c : Dev nD) : StableHlo.after opsHead (W2 m ρ c) (Proc.devRef .tc main_arg1) = A1 m c := by
  rw [head_main_arg1, W2_of_ne m ρ c main_arg1 (by decide)]; exact W1_arg1 m ρ c
theorem start_arg7 (c : Dev nD) : StableHlo.after opsHead (W2 m ρ c) (Proc.devRef .tc main_arg7) = A7 m c := by
  rw [head_main_arg7, W2_of_ne m ρ c main_arg7 (by decide)]; exact W1_arg7 m ρ c
theorem start_arg8 (c : Dev nD) : StableHlo.after opsHead (W2 m ρ c) (Proc.devRef .tc main_arg8) = A8 m c := by
  rw [head_main_arg8, W2_of_ne m ρ c main_arg8 (by decide)]; exact W1_arg8 m ρ c

/-! ## The two gathered arrays the scoring region finds -/

/-- The buffers when the scoring region is entered, as the six pieces of the host stretches run in order. -/
theorem W5_split (c : Dev nD) : W5 m ρ c
    = StableHlo.after opsC (StableHlo.after opsB (StableHlo.after opsA (StableHlo.after hostOps1_1 (StableHlo.after opsPre (StableHlo.after opsHead (W2 m ρ c)))))) :=
  split (W2 m ρ c)

/-- The propagated table when the last stretch starts is the reference's. -/
theorem propagated (c : Dev nD) :
    StableHlo.after opsB (StableHlo.after opsA (StableHlo.after hostOps1_1 (StableHlo.after opsPre (StableHlo.after opsHead (W2 m ρ c))))) (Proc.devRef .tc main_v82)
      = Cert.ReferenceIdeal.ReadP.val_main_v85 (F := Ideal) (A0 m c) (A1 m c) (A2 m c) (A3 m c) (A4 m c) (A5 m c) (A6 m c) := by
  obtain ⟨k1, k3, -, -⟩ := stageA_keep (F := Ideal) (StableHlo.after opsHead (W2 m ρ c))
  exact stageB (A0 m c) (A1 m c) (A2 m c) (A3 m c) (A4 m c) (A5 m c) (A6 m c) _
    (stageA_coef (A2 m c) (A3 m c) (A4 m c) (A5 m c) (A6 m c) _ (doubled_weights m ρ c) (start_v1 m ρ c) (start_v3 m ρ c))
    (stageA_x0 (A0 m c) (A1 m c) _ (start_arg0 m ρ c) (start_arg1 m ρ c))
    (k1.trans (start_v1 m ρ c)) (k3.trans (start_v3 m ρ c))

theorem gathered_users (c : Dev nD) :
    W5 m ρ c (Proc.devRef .tc main_v91)
      = Cert.ReferenceIdeal.ReadP.val_main_v94 (F := Ideal) (A0 m c) (A1 m c) (A2 m c) (A3 m c) (A4 m c) (A5 m c) (A6 m c) (A7 m c) := by
  rw [W5_split]
  obtain ⟨-, -, k7, -⟩ := stageA_keep (F := Ideal) (StableHlo.after opsHead (W2 m ρ c))
  obtain ⟨b7, -⟩ := stageB_keep (F := Ideal) (StableHlo.after opsA (StableHlo.after hostOps1_1 (StableHlo.after opsPre (StableHlo.after opsHead (W2 m ρ c)))))
  exact stageC_gu (A0 m c) (A1 m c) (A2 m c) (A3 m c) (A4 m c) (A5 m c) (A6 m c) (A7 m c) _ (propagated m ρ c)
    (b7.trans (k7.trans (start_arg7 m ρ c)))

theorem gathered_items (c : Dev nD) :
    W5 m ρ c (Proc.devRef .tc main_v98)
      = Cert.ReferenceIdeal.ReadP.val_main_v101 (F := Ideal) (A0 m c) (A1 m c) (A2 m c) (A3 m c) (A4 m c) (A5 m c) (A6 m c) (A8 m c) := by
  rw [W5_split]
  obtain ⟨-, -, -, k8⟩ := stageA_keep (F := Ideal) (StableHlo.after opsHead (W2 m ρ c))
  obtain ⟨-, b8⟩ := stageB_keep (F := Ideal) (StableHlo.after opsA (StableHlo.after hostOps1_1 (StableHlo.after opsPre (StableHlo.after opsHead (W2 m ρ c)))))
  exact stageC_gi (A0 m c) (A1 m c) (A2 m c) (A3 m c) (A4 m c) (A5 m c) (A6 m c) (A8 m c) _ (propagated m ρ c)
    (b8.trans (k8.trans (start_arg8 m ρ c)))

/-! ## The result -/

/-- The kernel's result array at the end of the run is the reference's result stage of the same arguments. -/
theorem result_eq (c : Dev nD) :
    W6 m ρ c (Proc.devRef .tc main_v99)
      = Cert.ReferenceIdeal.ReadP.val_main_v103 (F := Ideal) (A0 m c) (A1 m c) (A2 m c) (A3 m c) (A4 m c) (A5 m c) (A6 m c) (A7 m c) (A8 m c) := by
  refine (W6_arr m ρ c 2).trans ?_
  rw [ScoreRegion.final (V5 m ρ) c, RefSide.ref_score]
  show score (W5 m ρ c (Proc.devRef .tc main_v91)) (W5 m ρ c (Proc.devRef .tc main_v98)) = _
  rw [gathered_users, gathered_items]

end Cert.KValue

end
-- ==== Proof.lean ====
/-
  The certificate of a graph-propagation scorer: a Pallas program of two kernels among host operations against its jnp reference.

  Both programs compute, from user and item embeddings, edge features, an edge index and two index lists,
      ew    = (edge_features · F) · w + b                       (one weight per edge, doubled for the two directions)
      coef  = dinv[src] · dinv[dst] · ew,  dinv = deg^(-1/2) where deg > 0 (deg: a scatter-add of ones over dst)
      x₀    = the two embedding tables joined;  xₖ₊₁ = scatter-add over dst of coef · xₖ[src];  out = Σₖ αₖ · xₖ
      score = Σ_j out[users, j] · out[100000 + items, j].
  The kernel's program computes `ew` in its first kernel, block of 20000 rows by block, through bf16 operands and a zero
  accumulator, and `score` in its second, block of 4096 rows by block, by a lane sum; the reference computes both on the
  host. Everything between is the same host operations in both programs.

  On the extended reals (the ideal instance) a change of float format is the identity, a matrix product into a zero
  accumulator and the host's `dot_general` are the same finite sum, and a lane sum and the host's sum from a zero initial
  value are the same finite sum. So the two programs' edge weights are one function of the arguments (`Spec.edgeWeight`),
  the host chain carries equal values to equal values (`HostChain`), and the two results are one function of the two
  gathered arrays (`Spec.score`). No algebraic law beyond `0 + x = x` is used, and finiteness of the inputs is not needed.

  The frames of the two kernel programs are the generated ones; the reference's is its run with the result dropped;
  the idealization rewrote nothing, so `preserves` is `True`.
-/
import proofs.«130227_j64604898066610_1_alg».proof.Defs
import proofs.«130227_j64604898066610_1_alg».proof.Proof.Gen.Kernel
import proofs.«130227_j64604898066610_1_alg».proof.Proof.Gen.Kernel.Frame
import proofs.«130227_j64604898066610_1_alg».proof.Proof.Gen.KernelIdeal
import proofs.«130227_j64604898066610_1_alg».proof.Proof.Gen.KernelIdeal.Frame
import proofs.«130227_j64604898066610_1_alg».proof.Proof.Gen.ReferenceIdeal
import proofs.«130227_j64604898066610_1_alg».proof.Proof.Gen.Pre_finite_inputs
import proofs.«130227_j64604898066610_1_alg».proof.Proof.RefRun
import proofs.«130227_j64604898066610_1_alg».proof.Proof.RefRead
import proofs.«130227_j64604898066610_1_alg».proof.Proof.KRun
import proofs.«130227_j64604898066610_1_alg».proof.Proof.KValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories agreeing on the arguments both idealized programs run and end with the same result: the kernel's
    result array holds the reference's result stage of the kernel's arguments, and the reference's run ends at that
    stage of its own, equal, arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W6 m ρ c (Proc.devRef .tc Cert.KernelIdeal.main_v99),
    Cert.KernelIdeal.Gen.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8⟩ := hagree c
  rw [Cert.ReferenceIdeal.ReadP.val_main_v103_eq, h0, h1, h2, h3, h4, h5, h6, h7, h8]
  exact (Cert.KValue.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
